-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v83)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v83) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x1600000 : Shape := ⟨2, ![2, 1600000]⟩
abbrev S512x64 : Shape := ⟨2, ![512, 64]⟩
abbrev S64 : Shape := ⟨1, ![64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x64 : S_.BroadcastsInDim S512x64 (![] : Fin 0 → Fin S512x64.rank)
  reducesTo_S512x64_S_d0_1 : S512x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg5 : FVec F S32 .f32) (main_arg6 : FVec F S32x16 .f32) (main_arg7 : FVec F S16 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x16 .f32 := Host.absf main_arg6
  let main_cst_8 : FVec F S_ .f32 := constant S_ .f32 0x7F800000#32
  let main_v25 : FVec F S32x16 .f32 := broadcastInDim S32x16 ![] bcast_S_S32x16 main_cst_8
  let main_v26 : IVec S32x16 1 := cmpf .olt main_v24 main_v25
  let main_c_9 : IVec S_ 1 := constantI S_ 1 1#1
  let main_v27 : IVec S_ 1 := (fun x v => Host.reduce IntOp.andi x v reducesTo_S32x16_S_d0_1 h_S_) main_v26 main_c_9
  let main_v28 : IVec S_ 1 := andi main_v23 main_v27
  let main_v29 : FVec F S16 .f32 := Host.absf main_arg7
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  main_v33

def fn {F : FTy → Type} [FloatOps F] (main_arg0 : FVec F S100000x512 .f32) (main_arg1 : IVec S2x1600000 32) (main_arg2 : FVec F S512x64 .f32) (main_arg3 : FVec F S64 .f32) (main_arg4 : FVec F S64x32 .f32) (main_arg5 : FVec F S32 .f32) (main_arg6 : FVec F S32x16 .f32) (main_arg7 : FVec F S16 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x64 .f32 := Host.absf main_arg2
  let main_cst_0 : FVec F S_ .f32 := constant S_ .f32 0x7F800000#32
  let main_v5 : FVec F S512x64 .f32 := broadcastInDim S512x64 ![] bcast_S_S512x64 main_cst_0
  let main_v6 : IVec S512x64 1 := cmpf .olt main_v4 main_v5
  let main_c_1 : IVec S_ 1 := constantI S_ 1 1#1
  let main_v7 : IVec S_ 1 := (fun x v => Host.reduce IntOp.andi x v reducesTo_S512x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x32 .f32 := Host.absf main_arg4
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg5 main_arg6 main_arg7 main_v13 main_v16
-- ==== Kernel.lean ====
abbrev S100000x512 : Shape := ⟨2, ![100000, 512]⟩
abbrev S2x1600000 : Shape := ⟨2, ![2, 1600000]⟩
abbrev S512x64 : Shape := ⟨2, ![512, 64]⟩
abbrev S64 : Shape := ⟨1, ![64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S10000x512 : Shape := ⟨2, ![10000, 512]⟩
abbrev S10000x64 : Shape := ⟨2, ![10000, 64]⟩
abbrev S1700000x64 : Shape := ⟨2, ![1700000, 64]⟩
abbrev S1x64 : Shape := ⟨2, ![1, 64]⟩
abbrev S100000x32 : Shape := ⟨2, ![100000, 32]⟩
abbrev S50000x64 : Shape := ⟨2, ![50000, 64]⟩
abbrev S50000x32 : Shape := ⟨2, ![50000, 32]⟩
abbrev S1700000x32 : Shape := ⟨2, ![1700000, 32]⟩
abbrev S1x32 : Shape := ⟨2, ![1, 32]⟩
abbrev S100000x16 : Shape := ⟨2, ![100000, 16]⟩
abbrev S50000x16 : Shape := ⟨2, ![50000, 16]⟩
abbrev S1700000x16 : Shape := ⟨2, ![1700000, 16]⟩
abbrev S1x16 : Shape := ⟨2, ![1, 16]⟩
abbrev S100000x1 : Shape := ⟨2, ![100000, 1]⟩

abbrev nBuf : Space → Nat
  | .hbm => 129
  | .vmem => 15
  | .smem => 0
  | _ => 0

abbrev hbmTy0_0 (i : Nat) : BufTy := match i % 128 with
  | 0 => ⟨S100000x512, .f32⟩
  | 1 => ⟨S2x1600000, .i32⟩
  | 2 => ⟨S512x64, .f32⟩
  | 3 => ⟨S64, .f32⟩
  | 4 => ⟨S64x32, .f32⟩
  | 5 => ⟨S32, .f32⟩
  | 6 => ⟨S32x16, .f32⟩
  | 7 => ⟨S16, .f32⟩
  | 8 => ⟨S100000, .i32⟩
  | 9 => ⟨S1x1600000, .i32⟩
  | 10 => ⟨S1600000, .i32⟩
  | 11 => ⟨S1700000, .i32⟩
  | 12 => ⟨S1x1600000, .i32⟩
  | 13 => ⟨S1600000, .i32⟩
  | 14 => ⟨S1700000, .i32⟩
  | 15 => ⟨S_, .f32⟩
  | 16 => ⟨S1700000, .f32⟩
  | 17 => ⟨S_, .f32⟩
  | 18 => ⟨S100000, .f32⟩
  | 19 => ⟨S1700000x1, .i32⟩
  | 20 => ⟨S100000, .f32⟩
  | 21 => ⟨S_, .f32⟩
  | 22 => ⟨S100000, .f32⟩
  | 23 => ⟨S100000, .i1⟩
  | 24 => ⟨S100000, .f32⟩
  | 25 => ⟨S_, .f32⟩
  | 26 => ⟨S_, .f32⟩
  | 27 => ⟨S100000, .f32⟩
  | 28 => ⟨S100000, .f32⟩
  | 29 => ⟨S_, .i32⟩
  | 30 => ⟨S1700000, .i32⟩
  | 31 => ⟨S1700000, .i1⟩
  | 32 => ⟨S_, .i32⟩
  | 33 => ⟨S1700000, .i32⟩
  | 34 => ⟨S1700000, .i32⟩
  | 35 => ⟨S1700000, .i32⟩
  | 36 => ⟨S1700000x1, .i32⟩
  | 37 => ⟨S1700000, .f32⟩
  | 38 => ⟨S_, .i32⟩
  | 39 => ⟨S1700000, .i32⟩
  | 40 => ⟨S1700000, .i1⟩
  | 41 => ⟨S_, .i32⟩
  | 42 => ⟨S1700000, .i32⟩
  | 43 => ⟨S1700000, .i32⟩
  | 44 => ⟨S1700000, .i32⟩
  | 45 => ⟨S1700000x1, .i32⟩
  | 46 => ⟨S1700000, .f32⟩
  | 47 => ⟨S1700000, .f32⟩
  | 48 => ⟨S100000x64, .f32⟩
  | 49 => ⟨S_, .i32⟩
  | 50 => ⟨S1700000, .i32⟩
  | 51 => ⟨S1700000, .i1⟩
  | 52 => ⟨S_, .i32⟩
  | 53 => ⟨S1700000, .i32⟩
  | 54 => ⟨S1700000, .i32⟩
  | 55 => ⟨S1700000, .i32⟩
  | 56 => ⟨S1700000x1, .i32⟩
  | 57 => ⟨S1700000x64, .f32⟩
  | 58 => ⟨S1700000x1, .f32⟩
  | 59 => ⟨S1700000x64, .f32⟩
  | 60 => ⟨S1700000x64, .f32⟩
  | 61 => ⟨S_, .f32⟩
  | 62 => ⟨S100000x64, .f32⟩
  | 63 => ⟨S1700000x1, .i32⟩
  | 64 => ⟨S100000x64, .f32⟩
  | 65 => ⟨S1x64, .f32⟩
  | 66 => ⟨S100000x64, .f32⟩
  | 67 => ⟨S100000x64, .f32⟩
  | 68 => ⟨S_, .f32⟩
  | 69 => ⟨S100000x64, .f32⟩
  | 70 => ⟨S100000x64, .f32⟩
  | 71 => ⟨S100000x32, .f32⟩
  | 72 => ⟨S_, .i32⟩
  | 73 => ⟨S1700000, .i32⟩
  | 74 => ⟨S1700000, .i1⟩
  | 75 => ⟨S_, .i32⟩
  | 76 => ⟨S1700000, .i32⟩
  | 77 => ⟨S1700000, .i32⟩
  | 78 => ⟨S1700000, .i32⟩
  | 79 => ⟨S1700000x1, .i32⟩
  | 80 => ⟨S1700000x32, .f32⟩
  | 81 => ⟨S1700000x1, .f32⟩
  | 82 => ⟨S1700000x32, .f32⟩
  | 83 => ⟨S1700000x32, .f32⟩
  | 84 => ⟨S_, .f32⟩
  | 85 => ⟨S100000x32, .f32⟩
  | 86 => ⟨S1700000x1, .i32⟩
  | 87 => ⟨S100000x32, .f32⟩
  | 88 => ⟨S1x32, .f32⟩
  | 89 => ⟨S100000x32, .f32⟩
  | 90 => ⟨S100000x32, .f32⟩
  | 91 => ⟨S_, .f32⟩
  | 92 => ⟨S100000x32, .f32⟩
  | 93 => ⟨S100000x32, .f32⟩
  | 94 => ⟨S100000x16, .f32⟩
  | 95 => ⟨S_, .i32⟩
  | 96 => ⟨S1700000, .i32⟩
  | 97 => ⟨S1700000, .i1⟩
  | 98 => ⟨S_, .i32⟩
  | 99 => ⟨S1700000, .i32⟩
  | 100 => ⟨S1700000, .i32⟩
  | 101 => ⟨S1700000, .i32⟩
  | 102 => ⟨S1700000x1, .i32⟩
  | 103 => ⟨S1700000x16, .f32⟩
  | 104 => ⟨S1700000x1, .f32⟩
  | 105 => ⟨S1700000x16, .f32⟩
  | 106 => ⟨S1700000x16, .f32⟩
  | 107 => ⟨S_, .f32⟩
  | 108 => ⟨S100000x16, .f32⟩
  | 109 => ⟨S1700000x1, .i32⟩
  | 110 => ⟨S100000x16, .f32⟩
  | 111 => ⟨S1x16, .f32⟩
  | 112 => ⟨S100000x16, .f32⟩
  | 113 => ⟨S100000x16, .f32⟩
  | 114 => ⟨S_, .f32⟩
  | 115 => ⟨S100000, .f32⟩
  | 116 => ⟨S_, .f32⟩
  | 117 => ⟨S100000, .f32⟩
  | 118 => ⟨S100000, .f32⟩
  | 119 => ⟨S100000x1, .f32⟩
  | 120 => ⟨S100000x16, .f32⟩
  | 121 => ⟨S100000x16, .f32⟩
  | 122 => ⟨S100000x16, .f32⟩
  | 123 => ⟨S_, .f32⟩
  | 124 => ⟨S100000, .f32⟩
  | 125 => ⟨S100000x1, .f32⟩
  | 126 => ⟨S100000x1, .f32⟩
  | 127 => ⟨S100000x16, .f32⟩
  | _ => ⟨S100000x512, .f32⟩

abbrev hbmTy0_1 (i : Nat) : BufTy := match i % 128 with
  | 0 => ⟨S100000x16, .f32⟩
  | _ => ⟨S100000x512, .f32⟩

abbrev hbmTy (i : Nat) : BufTy := match i / 128 with
  | 0 => hbmTy0_0 i
  | 1 => hbmTy0_1 i
  | _ => ⟨S100000x512, .f32⟩

abbrev bufTy : (tb : Table) → Fin (tcTables nBuf tb) → BufTy
  | .hbm, ⟨i, _⟩ => hbmTy i
  | .local _ .vmem, ⟨0, _⟩ => ⟨S10000x512, .f32⟩
  | .local _ .vmem, ⟨1, _⟩ => ⟨S10000x512, .f32⟩
  | .local _ .vmem, ⟨2, _⟩ => ⟨S512x64, .f32⟩
  | .local _ .vmem, ⟨3, _⟩ => ⟨S10000x64, .f32⟩
  | .local _ .vmem, ⟨4, _⟩ => ⟨S10000x64, .f32⟩
  | .local _ .vmem, ⟨5, _⟩ => ⟨S50000x64, .f32⟩
  | .local _ .vmem, ⟨6, _⟩ => ⟨S50000x64, .f32⟩
  | .local _ .vmem, ⟨7, _⟩ => ⟨S64x32, .f32⟩
  | .local _ .vmem, ⟨8, _⟩ => ⟨S50000x32, .f32⟩
  | .local _ .vmem, ⟨9, _⟩ => ⟨S50000x32, .f32⟩
  | .local _ .vmem, ⟨10, _⟩ => ⟨S50000x32, .f32⟩
  | .local _ .vmem, ⟨11, _⟩ => ⟨S50000x32, .f32⟩
  | .local _ .vmem, ⟨12, _⟩ => ⟨S32x16, .f32⟩
  | .local _ .vmem, ⟨13, _⟩ => ⟨S50000x16, .f32⟩
  | .local _ .vmem, ⟨14, _⟩ => ⟨S50000x16, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_c_9 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_11 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_call2_cst : Ref sig .tc := ⟨.hbm, 91, rfl⟩
abbrev main_call2_v0 : Ref sig .tc := ⟨.hbm, 92, rfl⟩
abbrev main_v65 : Ref sig .tc := ⟨.hbm, 93, rfl⟩
abbrev main_v66 : Ref sig .tc := ⟨.hbm, 94, rfl⟩
abbrev main_c_12 : Ref sig .tc := ⟨.hbm, 95, rfl⟩
abbrev main_v67 : Ref sig .tc := ⟨.hbm, 96, rfl⟩
abbrev main_v68 : Ref sig .tc := ⟨.hbm, 97, rfl⟩
abbrev main_c_13 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_cst_14 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_call3_cst : Ref sig .tc := ⟨.hbm, 114, rfl⟩
abbrev main_call3_v0 : Ref sig .tc := ⟨.hbm, 115, rfl⟩
abbrev main_call3_cst_0 : Ref sig .tc := ⟨.hbm, 116, rfl⟩
abbrev main_call3_v1 : Ref sig .tc := ⟨.hbm, 117, rfl⟩
abbrev main_call3_v2 : Ref sig .tc := ⟨.hbm, 118, rfl⟩
abbrev main_call3_v3 : Ref sig .tc := ⟨.hbm, 119, rfl⟩
abbrev main_call3_v4 : Ref sig .tc := ⟨.hbm, 120, rfl⟩
abbrev main_call3_v5 : Ref sig .tc := ⟨.hbm, 121, rfl⟩
abbrev main_call3_v6 : Ref sig .tc := ⟨.hbm, 122, rfl⟩
abbrev main_call3_cst_1 : Ref sig .tc := ⟨.hbm, 123, rfl⟩
abbrev main_call3_v7 : Ref sig .tc := ⟨.hbm, 124, rfl⟩
abbrev main_call3_v8 : Ref sig .tc := ⟨.hbm, 125, rfl⟩
abbrev main_call3_v9 : Ref sig .tc := ⟨.hbm, 126, rfl⟩
abbrev main_call3_v10 : Ref sig .tc := ⟨.hbm, 127, rfl⟩
abbrev main_v83 : Ref sig .tc := ⟨.hbm, 128, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![2], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S50000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S50000x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![2], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S50000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S32x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S50000x16 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x512_S10000x512_0_0 : ∀ a, (![0, 0] : Fin 2 → Nat) a + S10000x512.size a ≤ S10000x512.size a
  h_S10000x512 : 0 < S10000x512.numel
  inb_S512x64_S512x64_0_0 : ∀ a, (![0, 0] : Fin 2 → Nat) a + S512x64.size a ≤ S512x64.size a
  h_S512x64 : 0 < S512x64.numel
  inb_S10000x64_S10000x64_0_0 : ∀ a, (![0, 0] : Fin 2 → Nat) a + S10000x64.size a ≤ S10000x64.size a
  h_S10000x64 : 0 < S10000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  inb_S50000x64_S50000x64_0_0 : ∀ a, (![0, 0] : Fin 2 → Nat) a + S50000x64.size a ≤ S50000x64.size a
  h_S50000x64 : 0 < S50000x64.numel
  shapeCasts_S50000x64_S50000x64 : S50000x64.ShapeCasts S50000x64
  inb_S64x32_S64x32_0_0 : ∀ a, (![0, 0] : Fin 2 → Nat) a + S64x32.size a ≤ S64x32.size a
  h_S64x32 : 0 < S64x32.numel
  inb_S50000x32_S50000x32_0_0 : ∀ a, (![0, 0] : Fin 2 → Nat) a + S50000x32.size a ≤ S50000x32.size a
  h_S50000x32 : 0 < S50000x32.numel
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  shapeCasts_S50000x32_S50000x32 : S50000x32.ShapeCasts S50000x32
  inb_S32x16_S32x16_0_0 : ∀ a, (![0, 0] : Fin 2 → Nat) a + S32x16.size a ≤ S32x16.size a
  h_S32x16 : 0 < S32x16.numel
  inb_S50000x16_S50000x16_0_0 : ∀ a, (![0, 0] : Fin 2 → Nat) a + S50000x16.size a ≤ S50000x16.size a
  h_S50000x16 : 0 < S50000x16.numel
  bcast_S1700000x1_S1700000x16_0_1 : S1700000x1.BroadcastsInDim S1700000x16 (![0, 1] : Fin 2 → Fin S1700000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  reducesTo_S100000x16_S100000_d1 : S100000x16.ReducesTo [1] S100000
  h_S_ : 0 < S_.numel
  bcast_S100000_S100000x1_0 : S100000.BroadcastsInDim S100000x1 (![0] : Fin 1 → Fin S100000x1.rank)
  bcast_S100000x1_S100000x16_0_1 : S100000x1.BroadcastsInDim S100000x16 (![0, 1] : Fin 2 → Fin S100000x16.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x512_S512x64_S10000x64_1_0_0_1_n_n_wf : DotDims.WF S10000x512 S512x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S50000x64_S64x32_S50000x32_1_0_0_1_n_n_wf : DotDims.WF S50000x64 S64x32 S50000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  dot_S50000x32_S32x16_S50000x16_1_0_0_1_n_n_wf : DotDims.WF S50000x32 S32x16 S50000x16 [1] [0] [0] [1] [] []
  gather_S100000x16_S1700000x1_S1700000x16_1_0_n_n_0_1_116_wf : GatherDims.WF S100000x16 S1700000x1 S1700000x16 [1] [0] [] [0] [] 1 ![1, 16]
  scatter_S100000x16_S1700000x1_S1700000x16_1_0_0_1_wf : ScatterDims.WF S100000x16 S1700000x1 S1700000x16 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x512.size a ≤ S100000x512.size a
  hwx0_0 : ∀ i : grid0.Coords, EltTy.bits .f32 = 32 ∨ (Rect.block (s := S100000x512) S10000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x64.size a ≤ S512x64.size a
  hwx0_1 : ∀ i : grid0.Coords, EltTy.bits .f32 = 32 ∨ (Rect.block (s := S512x64) S512x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S50000x64.size a ≤ S100000x64.size a
  hwx1_0 : ∀ i : grid1.Coords, EltTy.bits .f32 = 32 ∨ (Rect.block (s := S100000x64) S50000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x32.size a ≤ S64x32.size a
  hwx1_1 : ∀ i : grid1.Coords, EltTy.bits .f32 = 32 ∨ (Rect.block (s := S64x32) S64x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S50000x32.size a ≤ S100000x32.size a
  hwx1_2 : ∀ i : grid1.Coords, EltTy.bits .f32 = 32 ∨ (Rect.block (s := S100000x32) S50000x32.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S50000x32.size a ≤ S100000x32.size a
  hwx2_0 : ∀ i : grid2.Coords, EltTy.bits .f32 = 32 ∨ (Rect.block (s := S100000x32) S50000x32.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S32x16.size a ≤ S32x16.size a
  hwx2_1 : ∀ i : grid2.Coords, EltTy.bits .f32 = 32 ∨ (Rect.block (s := S32x16) S32x16.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S50000x16.size a ≤ S100000x16.size a
  hwx2_2 : ∀ i : grid2.Coords, EltTy.bits .f32 = 32 ∨ (Rect.block (s := S100000x16) S50000x16.size (cc2_transform_2 i) (hinb2_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x512_S512x64_S10000x64_1_0_0_1_n_n : DotDims S10000x512 S512x64 S10000x64 where
  lhsContracting := [1]
  rhsContracting := [0]
  lhsNonContracting := [0]
  rhsNonContracting := [1]
  lhsBatch := []
  rhsBatch := []
  wf := dot_S10000x512_S512x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S50000x64_S64x32_S50000x32_1_0_0_1_n_n : DotDims S50000x64 S64x32 S50000x32 where
  lhsContracting := [1]
  rhsContracting := [0]
  lhsNonContracting := [0]
  rhsNonContracting := [1]
  lhsBatch := []
  rhsBatch := []
  wf := dot_S50000x64_S64x32_S50000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf
def dot_S50000x32_S32x16_S50000x16_1_0_0_1_n_n : DotDims S50000x32 S32x16 S50000x16 where
  lhsContracting := [1]
  rhsContracting := [0]
  lhsNonContracting := [0]
  rhsNonContracting := [1]
  lhsBatch := []
  rhsBatch := []
  wf := dot_S50000x32_S32x16_S50000x16_1_0_0_1_n_n_wf
def gather_S100000x16_S1700000x1_S1700000x16_1_0_n_n_0_1_116 : GatherDims S100000x16 S1700000x1 S1700000x16 where
  offsetDims := [1]
  collapsedSliceDims := [0]
  operandBatchingDims := []
  startIndicesBatchingDims := []
  startIndexMap := [0]
  indexVectorDim := 1
  sliceSizes := ![1, 16]
  wf := gather_S100000x16_S1700000x1_S1700000x16_1_0_n_n_0_1_116_wf
def scatter_S100000x16_S1700000x1_S1700000x16_1_0_0_1 : ScatterDims S100000x16 S1700000x1 S1700000x16 where
  updateWindowDims := [1]
  insertedWindowDims := [0]
  scatterDimsToOperandDims := [0]
  indexVectorDim := 1
  wf := scatter_S100000x16_S1700000x1_S1700000x16_1_0_0_1_wf

abbrev win0_0 : Pipeline.Window sig grid0 :=
  Pipeline.Window.ofSpec (Memref.whole main_arg0) S10000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S50000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S64x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S50000x32.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v65) S50000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S32x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v66) S50000x16.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x512 : Shape := ⟨2, ![100000, 512]⟩
abbrev S2x1600000 : Shape := ⟨2, ![2, 1600000]⟩
abbrev S512x64 : Shape := ⟨2, ![512, 64]⟩
abbrev S64 : Shape := ⟨1, ![64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S1700000x64 : Shape := ⟨2, ![1700000, 64]⟩
abbrev S1x64 : Shape := ⟨2, ![1, 64]⟩
abbrev S100000x32 : Shape := ⟨2, ![100000, 32]⟩
abbrev S1700000x32 : Shape := ⟨2, ![1700000, 32]⟩
abbrev S1x32 : Shape := ⟨2, ![1, 32]⟩
abbrev S100000x16 : Shape := ⟨2, ![100000, 16]⟩
abbrev S1700000x16 : Shape := ⟨2, ![1700000, 16]⟩
abbrev S1x16 : Shape := ⟨2, ![1, 16]⟩
abbrev S100000x1 : Shape := ⟨2, ![100000, 1]⟩

abbrev nBuf : Space → Nat
  | .hbm => 129
  | .vmem => 0
  | .smem => 0
  | _ => 0

abbrev hbmTy0_0 (i : Nat) : BufTy := match i % 128 with
  | 0 => ⟨S100000x512, .f32⟩
  | 1 => ⟨S2x1600000, .i32⟩
  | 2 => ⟨S512x64, .f32⟩
  | 3 => ⟨S64, .f32⟩
  | 4 => ⟨S64x32, .f32⟩
  | 5 => ⟨S32, .f32⟩
  | 6 => ⟨S32x16, .f32⟩
  | 7 => ⟨S16, .f32⟩
  | 8 => ⟨S100000, .i32⟩
  | 9 => ⟨S1x1600000, .i32⟩
  | 10 => ⟨S1600000, .i32⟩
  | 11 => ⟨S1700000, .i32⟩
  | 12 => ⟨S1x1600000, .i32⟩
  | 13 => ⟨S1600000, .i32⟩
  | 14 => ⟨S1700000, .i32⟩
  | 15 => ⟨S_, .f32⟩
  | 16 => ⟨S1700000, .f32⟩
  | 17 => ⟨S_, .f32⟩
  | 18 => ⟨S100000, .f32⟩
  | 19 => ⟨S1700000x1, .i32⟩
  | 20 => ⟨S100000, .f32⟩
  | 21 => ⟨S_, .f32⟩
  | 22 => ⟨S100000, .f32⟩
  | 23 => ⟨S100000, .i1⟩
  | 24 => ⟨S100000, .f32⟩
  | 25 => ⟨S_, .f32⟩
  | 26 => ⟨S_, .f32⟩
  | 27 => ⟨S100000, .f32⟩
  | 28 => ⟨S100000, .f32⟩
  | 29 => ⟨S_, .i32⟩
  | 30 => ⟨S1700000, .i32⟩
  | 31 => ⟨S1700000, .i1⟩
  | 32 => ⟨S_, .i32⟩
  | 33 => ⟨S1700000, .i32⟩
  | 34 => ⟨S1700000, .i32⟩
  | 35 => ⟨S1700000, .i32⟩
  | 36 => ⟨S1700000x1, .i32⟩
  | 37 => ⟨S1700000, .f32⟩
  | 38 => ⟨S_, .i32⟩
  | 39 => ⟨S1700000, .i32⟩
  | 40 => ⟨S1700000, .i1⟩
  | 41 => ⟨S_, .i32⟩
  | 42 => ⟨S1700000, .i32⟩
  | 43 => ⟨S1700000, .i32⟩
  | 44 => ⟨S1700000, .i32⟩
  | 45 => ⟨S1700000x1, .i32⟩
  | 46 => ⟨S1700000, .f32⟩
  | 47 => ⟨S1700000, .f32⟩
  | 48 => ⟨S100000x64, .f32⟩
  | 49 => ⟨S_, .i32⟩
  | 50 => ⟨S1700000, .i32⟩
  | 51 => ⟨S1700000, .i1⟩
  | 52 => ⟨S_, .i32⟩
  | 53 => ⟨S1700000, .i32⟩
  | 54 => ⟨S1700000, .i32⟩
  | 55 => ⟨S1700000, .i32⟩
  | 56 => ⟨S1700000x1, .i32⟩
  | 57 => ⟨S1700000x64, .f32⟩
  | 58 => ⟨S1700000x1, .f32⟩
  | 59 => ⟨S1700000x64, .f32⟩
  | 60 => ⟨S1700000x64, .f32⟩
  | 61 => ⟨S_, .f32⟩
  | 62 => ⟨S100000x64, .f32⟩
  | 63 => ⟨S1700000x1, .i32⟩
  | 64 => ⟨S100000x64, .f32⟩
  | 65 => ⟨S1x64, .f32⟩
  | 66 => ⟨S100000x64, .f32⟩
  | 67 => ⟨S100000x64, .f32⟩
  | 68 => ⟨S_, .f32⟩
  | 69 => ⟨S100000x64, .f32⟩
  | 70 => ⟨S100000x64, .f32⟩
  | 71 => ⟨S100000x32, .f32⟩
  | 72 => ⟨S_, .i32⟩
  | 73 => ⟨S1700000, .i32⟩
  | 74 => ⟨S1700000, .i1⟩
  | 75 => ⟨S_, .i32⟩
  | 76 => ⟨S1700000, .i32⟩
  | 77 => ⟨S1700000, .i32⟩
  | 78 => ⟨S1700000, .i32⟩
  | 79 => ⟨S1700000x1, .i32⟩
  | 80 => ⟨S1700000x32, .f32⟩
  | 81 => ⟨S1700000x1, .f32⟩
  | 82 => ⟨S1700000x32, .f32⟩
  | 83 => ⟨S1700000x32, .f32⟩
  | 84 => ⟨S_, .f32⟩
  | 85 => ⟨S100000x32, .f32⟩
  | 86 => ⟨S1700000x1, .i32⟩
  | 87 => ⟨S100000x32, .f32⟩
  | 88 => ⟨S1x32, .f32⟩
  | 89 => ⟨S100000x32, .f32⟩
  | 90 => ⟨S100000x32, .f32⟩
  | 91 => ⟨S_, .f32⟩
  | 92 => ⟨S100000x32, .f32⟩
  | 93 => ⟨S100000x32, .f32⟩
  | 94 => ⟨S100000x16, .f32⟩
  | 95 => ⟨S_, .i32⟩
  | 96 => ⟨S1700000, .i32⟩
  | 97 => ⟨S1700000, .i1⟩
  | 98 => ⟨S_, .i32⟩
  | 99 => ⟨S1700000, .i32⟩
  | 100 => ⟨S1700000, .i32⟩
  | 101 => ⟨S1700000, .i32⟩
  | 102 => ⟨S1700000x1, .i32⟩
  | 103 => ⟨S1700000x16, .f32⟩
  | 104 => ⟨S1700000x1, .f32⟩
  | 105 => ⟨S1700000x16, .f32⟩
  | 106 => ⟨S1700000x16, .f32⟩
  | 107 => ⟨S_, .f32⟩
  | 108 => ⟨S100000x16, .f32⟩
  | 109 => ⟨S1700000x1, .i32⟩
  | 110 => ⟨S100000x16, .f32⟩
  | 111 => ⟨S1x16, .f32⟩
  | 112 => ⟨S100000x16, .f32⟩
  | 113 => ⟨S100000x16, .f32⟩
  | 114 => ⟨S_, .f32⟩
  | 115 => ⟨S100000, .f32⟩
  | 116 => ⟨S_, .f32⟩
  | 117 => ⟨S100000, .f32⟩
  | 118 => ⟨S100000, .f32⟩
  | 119 => ⟨S100000x1, .f32⟩
  | 120 => ⟨S100000x16, .f32⟩
  | 121 => ⟨S100000x16, .f32⟩
  | 122 => ⟨S100000x16, .f32⟩
  | 123 => ⟨S_, .f32⟩
  | 124 => ⟨S100000, .f32⟩
  | 125 => ⟨S100000x1, .f32⟩
  | 126 => ⟨S100000x1, .f32⟩
  | 127 => ⟨S100000x16, .f32⟩
  | _ => ⟨S100000x512, .f32⟩

abbrev hbmTy0_1 (i : Nat) : BufTy := match i % 128 with
  | 0 => ⟨S100000x16, .f32⟩
  | _ => ⟨S100000x512, .f32⟩

abbrev hbmTy (i : Nat) : BufTy := match i / 128 with
  | 0 => hbmTy0_0 i
  | 1 => hbmTy0_1 i
  | _ => ⟨S100000x512, .f32⟩

abbrev bufTy : (tb : Table) → Fin (tcTables nBuf tb) → BufTy
  | .hbm, ⟨i, _⟩ => hbmTy i
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_c_9 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_11 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_call2_cst : Ref sig .tc := ⟨.hbm, 91, rfl⟩
abbrev main_call2_v0 : Ref sig .tc := ⟨.hbm, 92, rfl⟩
abbrev main_v65 : Ref sig .tc := ⟨.hbm, 93, rfl⟩
abbrev main_v66 : Ref sig .tc := ⟨.hbm, 94, rfl⟩
abbrev main_c_12 : Ref sig .tc := ⟨.hbm, 95, rfl⟩
abbrev main_v67 : Ref sig .tc := ⟨.hbm, 96, rfl⟩
abbrev main_v68 : Ref sig .tc := ⟨.hbm, 97, rfl⟩
abbrev main_c_13 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_cst_14 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_call3_cst : Ref sig .tc := ⟨.hbm, 114, rfl⟩
abbrev main_call3_v0 : Ref sig .tc := ⟨.hbm, 115, rfl⟩
abbrev main_call3_cst_0 : Ref sig .tc := ⟨.hbm, 116, rfl⟩
abbrev main_call3_v1 : Ref sig .tc := ⟨.hbm, 117, rfl⟩
abbrev main_call3_v2 : Ref sig .tc := ⟨.hbm, 118, rfl⟩
abbrev main_call3_v3 : Ref sig .tc := ⟨.hbm, 119, rfl⟩
abbrev main_call3_v4 : Ref sig .tc := ⟨.hbm, 120, rfl⟩
abbrev main_call3_v5 : Ref sig .tc := ⟨.hbm, 121, rfl⟩
abbrev main_call3_v6 : Ref sig .tc := ⟨.hbm, 122, rfl⟩
abbrev main_call3_cst_1 : Ref sig .tc := ⟨.hbm, 123, rfl⟩
abbrev main_call3_v7 : Ref sig .tc := ⟨.hbm, 124, rfl⟩
abbrev main_call3_v8 : Ref sig .tc := ⟨.hbm, 125, rfl⟩
abbrev main_call3_v9 : Ref sig .tc := ⟨.hbm, 126, rfl⟩
abbrev main_call3_v10 : Ref sig .tc := ⟨.hbm, 127, rfl⟩
abbrev main_v83 : Ref sig .tc := ⟨.hbm, 128, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S1700000x1_S1700000x16_0_1 : S1700000x1.BroadcastsInDim S1700000x16 (![0, 1] : Fin 2 → Fin S1700000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  reducesTo_S100000x16_S100000_d1 : S100000x16.ReducesTo [1] S100000
  h_S_ : 0 < S_.numel
  bcast_S100000_S100000x1_0 : S100000.BroadcastsInDim S100000x1 (![0] : Fin 1 → Fin S100000x1.rank)
  bcast_S100000x1_S100000x16_0_1 : S100000x1.BroadcastsInDim S100000x16 (![0, 1] : Fin 2 → Fin S100000x16.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x512_S512x64_S100000x64_1_0_0_1_n_n_wf : DotDims.WF S100000x512 S512x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x32_S100000x32_1_0_0_1_n_n_wf : DotDims.WF S100000x64 S64x32 S100000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  dot_S100000x32_S32x16_S100000x16_1_0_0_1_n_n_wf : DotDims.WF S100000x32 S32x16 S100000x16 [1] [0] [0] [1] [] []
  gather_S100000x16_S1700000x1_S1700000x16_1_0_n_n_0_1_116_wf : GatherDims.WF S100000x16 S1700000x1 S1700000x16 [1] [0] [] [0] [] 1 ![1, 16]
  scatter_S100000x16_S1700000x1_S1700000x16_1_0_0_1_wf : ScatterDims.WF S100000x16 S1700000x1 S1700000x16 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x512_S512x64_S100000x64_1_0_0_1_n_n : DotDims S100000x512 S512x64 S100000x64 where
  lhsContracting := [1]
  rhsContracting := [0]
  lhsNonContracting := [0]
  rhsNonContracting := [1]
  lhsBatch := []
  rhsBatch := []
  wf := dot_S100000x512_S512x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf
def dot_S100000x32_S32x16_S100000x16_1_0_0_1_n_n : DotDims S100000x32 S32x16 S100000x16 where
  lhsContracting := [1]
  rhsContracting := [0]
  lhsNonContracting := [0]
  rhsNonContracting := [1]
  lhsBatch := []
  rhsBatch := []
  wf := dot_S100000x32_S32x16_S100000x16_1_0_0_1_n_n_wf
def gather_S100000x16_S1700000x1_S1700000x16_1_0_n_n_0_1_116 : GatherDims S100000x16 S1700000x1 S1700000x16 where
  offsetDims := [1]
  collapsedSliceDims := [0]
  operandBatchingDims := []
  startIndicesBatchingDims := []
  startIndexMap := [0]
  indexVectorDim := 1
  sliceSizes := ![1, 16]
  wf := gather_S100000x16_S1700000x1_S1700000x16_1_0_n_n_0_1_116_wf
def scatter_S100000x16_S1700000x1_S1700000x16_1_0_0_1 : ScatterDims S100000x16 S1700000x1 S1700000x16 where
  updateWindowDims := [1]
  insertedWindowDims := [0]
  scatterDimsToOperandDims := [0]
  indexVectorDim := 1
  wf := scatter_S100000x16_S1700000x1_S1700000x16_1_0_0_1_wf

class Facts : Prop extends Facts₀ where

variable [Facts]
-- ==== Proof.Region0.lean ====
/-
  Region 0 of the kernel's program computes a matrix product row block by row block: the grid has 10 points,
  point `t` loads rows `10000·t … 10000·t + 9999` of the left array (all 512 columns) and the whole 512 × 64 right array,
  multiplies them into a zero accumulator and writes the 10000 × 64 result over the same rows of the output array.
  On the extended reals a product into a zero accumulator is the plain sum `∑ k, a (r, k) · b (k, c)` (no finiteness
  is needed: `0 + s = s` for every extended real), and that sum does not see how the rows are grouped. So entry
  `(r, c)` of the output array, written by the one point `t = r / 10000` whose block holds row `r`, is entry `(r, c)` of the
  product of the WHOLE arrays — which is what the host's `dot_general` of the two arrays is at that entry. The blocks tile
  the 100000 rows, so after the region the output array IS that `dot_general`, whatever the arrays held at entry.
-/
import proofs.«401238_j22325240004826_2_alg».proof.Proof.Gen.KernelIdeal.Frame
import proofs.«401238_j22325240004826_2_alg».proof.ReferenceIdeal
import proofs.«401238_j22325240004826_2_alg».proof.Proof.Gen.ReferenceIdeal
import Idealize.ShloMosaic.Lib.Pipeline.Value
import Idealize.ShloMosaic.Lib.ValueIdx
import Idealize.ShloMosaic.PureOps.Ideal.Laws

set_option maxRecDepth 16384

noncomputable section

namespace Cert.KernelIdeal.Region0

open Cert.KernelIdeal Cert.KernelIdeal.Gen
open Idealize.ShloMosaic Idealize.ShloMosaic.TcCoe Idealize.SL.Sem
open Idealize.ShloMosaic.Pipeline (Dat)

/-! ## Entries of the two operands that meet in one term of the sum -/

/-- In a row block: the left entry (row of `j`, column `k`). -/
abbrev blkL (j : S10000x64.Idx) (k : Fin 512) : S10000x512.Idx := fun a => match a with
  | ⟨0, _⟩ => ⟨(j 0).val, (j 0).isLt⟩
  | ⟨1, _⟩ => ⟨k.val, k.isLt⟩
/-- The right entry (row `k`, column of `j`), for a block's index `j`. -/
abbrev blkR (j : S10000x64.Idx) (k : Fin 512) : S512x64.Idx := fun a => match a with
  | ⟨0, _⟩ => ⟨k.val, k.isLt⟩
  | ⟨1, _⟩ => ⟨(j 1).val, (j 1).isLt⟩
/-- In the whole arrays: the left entry (row of `i`, column `k`). -/
abbrev arrL (i : S100000x64.Idx) (k : Fin 512) : S100000x512.Idx := fun a => match a with
  | ⟨0, _⟩ => ⟨(i 0).val, (i 0).isLt⟩
  | ⟨1, _⟩ => ⟨k.val, k.isLt⟩
/-- The right entry (row `k`, column of `i`), for an index `i` of the whole output. -/
abbrev arrR (i : S100000x64.Idx) (k : Fin 512) : S512x64.Idx := fun a => match a with
  | ⟨0, _⟩ => ⟨k.val, k.isLt⟩
  | ⟨1, _⟩ => ⟨(i 1).val, (i 1).isLt⟩

/-! ## The block's product at an index -/

theorem blk_lhs_0 (j : S10000x64.Idx) (q : dot_S10000x512_S512x64_S10000x64_1_0_0_1_n_n.contr.Idx) :
    (dot_S10000x512_S512x64_S10000x64_1_0_0_1_n_n.lhsIdx j q 0).val = (j 0).val := by
  unfold DotDims.lhsIdx
  rw [dif_neg (show ¬(0 : Fin S10000x512.rank) ∈ dot_S10000x512_S512x64_S10000x64_1_0_0_1_n_n.lhsBatch by decide), dif_pos (show (0 : Fin S10000x512.rank) ∈ dot_S10000x512_S512x64_S10000x64_1_0_0_1_n_n.lhsNonContracting by decide)]
  rfl
theorem blk_lhs_1 (j : S10000x64.Idx) (q : dot_S10000x512_S512x64_S10000x64_1_0_0_1_n_n.contr.Idx) :
    (dot_S10000x512_S512x64_S10000x64_1_0_0_1_n_n.lhsIdx j q 1).val = (q ⟨0, by decide⟩).val :=
  dot_S10000x512_S512x64_S10000x64_1_0_0_1_n_n.lhsIdx_val_of_single rfl j q
theorem blk_rhs_0 (j : S10000x64.Idx) (q : dot_S10000x512_S512x64_S10000x64_1_0_0_1_n_n.contr.Idx) :
    (dot_S10000x512_S512x64_S10000x64_1_0_0_1_n_n.rhsIdx j q 0).val = (q ⟨0, by decide⟩).val :=
  dot_S10000x512_S512x64_S10000x64_1_0_0_1_n_n.rhsIdx_val_of_single rfl j q
theorem blk_rhs_1 (j : S10000x64.Idx) (q : dot_S10000x512_S512x64_S10000x64_1_0_0_1_n_n.contr.Idx) :
    (dot_S10000x512_S512x64_S10000x64_1_0_0_1_n_n.rhsIdx j q 1).val = (j 1).val := by
  unfold DotDims.rhsIdx
  rw [dif_neg (show ¬(1 : Fin S512x64.rank) ∈ dot_S10000x512_S512x64_S10000x64_1_0_0_1_n_n.rhsBatch by decide), dif_pos (show (1 : Fin S512x64.rank) ∈ dot_S10000x512_S512x64_S10000x64_1_0_0_1_n_n.rhsNonContracting by decide)]
  rfl

/-- What the body stores, at an index of the block: the sum over the 512 columns of the left block's row times the
    right array's column. -/
theorem blockProduct_apply (x0 : FVec Ideal S10000x512 .f32) (x1 : FVec Ideal S512x64 .f32) (j : S10000x64.Idx) :
    k0_pay1 (F := Ideal) x0 x1 j = ∑ k : Fin 512, x0 (blkL j k) * x1 (blkR j k) := by
  unfold k0_pay1
  -- a body that first re-lays the left block to its own shape: the identity
  try rw [shapeCast_self]
  show FloatOps.matmul dot_S10000x512_S512x64_S10000x64_1_0_0_1_n_n none x0 x1 (constant S10000x64 .f32 0x00000000#32) j = _
  rw [Ideal.matmul_constant_zero_apply, ← Equiv.sum_comp (ValueIdx.contrEquiv1 dot_S10000x512_S512x64_S10000x64_1_0_0_1_n_n 512 rfl rfl).symm]
  refine Finset.sum_congr rfl fun k _ => ?_
  have hk := ValueIdx.contrEquiv1_symm_val dot_S10000x512_S512x64_S10000x64_1_0_0_1_n_n 512 rfl rfl k
  have el : dot_S10000x512_S512x64_S10000x64_1_0_0_1_n_n.lhsIdx j ((ValueIdx.contrEquiv1 dot_S10000x512_S512x64_S10000x64_1_0_0_1_n_n 512 rfl rfl).symm k) = blkL j k := funext fun a => Fin.ext (by
    match a with
    | ⟨0, _⟩ => exact blk_lhs_0 _ _
    | ⟨1, _⟩ => exact (blk_lhs_1 _ _).trans hk)
  have er : dot_S10000x512_S512x64_S10000x64_1_0_0_1_n_n.rhsIdx j ((ValueIdx.contrEquiv1 dot_S10000x512_S512x64_S10000x64_1_0_0_1_n_n 512 rfl rfl).symm k) = blkR j k := funext fun a => Fin.ext (by
    match a with
    | ⟨0, _⟩ => exact (blk_rhs_0 _ _).trans hk
    | ⟨1, _⟩ => exact blk_rhs_1 _ _)
  rw [el, er]

/-! ## The whole arrays' product at an index -/

theorem arr_lhs_0 (i : S100000x64.Idx) (q : Cert.ReferenceIdeal.dot_S100000x512_S512x64_S100000x64_1_0_0_1_n_n.contr.Idx) :
    (Cert.ReferenceIdeal.dot_S100000x512_S512x64_S100000x64_1_0_0_1_n_n.lhsIdx i q 0).val = (i 0).val := by
  unfold DotDims.lhsIdx
  rw [dif_neg (show ¬(0 : Fin S100000x512.rank) ∈ Cert.ReferenceIdeal.dot_S100000x512_S512x64_S100000x64_1_0_0_1_n_n.lhsBatch by decide), dif_pos (show (0 : Fin S100000x512.rank) ∈ Cert.ReferenceIdeal.dot_S100000x512_S512x64_S100000x64_1_0_0_1_n_n.lhsNonContracting by decide)]
  rfl
theorem arr_lhs_1 (i : S100000x64.Idx) (q : Cert.ReferenceIdeal.dot_S100000x512_S512x64_S100000x64_1_0_0_1_n_n.contr.Idx) :
    (Cert.ReferenceIdeal.dot_S100000x512_S512x64_S100000x64_1_0_0_1_n_n.lhsIdx i q 1).val = (q ⟨0, by decide⟩).val :=
  Cert.ReferenceIdeal.dot_S100000x512_S512x64_S100000x64_1_0_0_1_n_n.lhsIdx_val_of_single rfl i q
theorem arr_rhs_0 (i : S100000x64.Idx) (q : Cert.ReferenceIdeal.dot_S100000x512_S512x64_S100000x64_1_0_0_1_n_n.contr.Idx) :
    (Cert.ReferenceIdeal.dot_S100000x512_S512x64_S100000x64_1_0_0_1_n_n.rhsIdx i q 0).val = (q ⟨0, by decide⟩).val :=
  Cert.ReferenceIdeal.dot_S100000x512_S512x64_S100000x64_1_0_0_1_n_n.rhsIdx_val_of_single rfl i q
theorem arr_rhs_1 (i : S100000x64.Idx) (q : Cert.ReferenceIdeal.dot_S100000x512_S512x64_S100000x64_1_0_0_1_n_n.contr.Idx) :
    (Cert.ReferenceIdeal.dot_S100000x512_S512x64_S100000x64_1_0_0_1_n_n.rhsIdx i q 1).val = (i 1).val := by
  unfold DotDims.rhsIdx
  rw [dif_neg (show ¬(1 : Fin S512x64.rank) ∈ Cert.ReferenceIdeal.dot_S100000x512_S512x64_S100000x64_1_0_0_1_n_n.rhsBatch by decide), dif_pos (show (1 : Fin S512x64.rank) ∈ Cert.ReferenceIdeal.dot_S100000x512_S512x64_S100000x64_1_0_0_1_n_n.rhsNonContracting by decide)]
  rfl

/-- The host's product of the whole arrays, at an index: the same sum over the 512 columns. -/
theorem arrayProduct_apply (a : FVec Ideal S100000x512 .f32) (b : FVec Ideal S512x64 .f32) (i : S100000x64.Idx) :
    Host.dotGeneral (F := Ideal) Cert.ReferenceIdeal.dot_S100000x512_S512x64_S100000x64_1_0_0_1_n_n none a b i = ∑ k : Fin 512, a (arrL i k) * b (arrR i k) := by
  simp only [Host.dotGeneral]
  rw [Ideal.dotGeneral_apply, ← Equiv.sum_comp (ValueIdx.contrEquiv1 Cert.ReferenceIdeal.dot_S100000x512_S512x64_S100000x64_1_0_0_1_n_n 512 rfl rfl).symm]
  refine Finset.sum_congr rfl fun k _ => ?_
  have hk := ValueIdx.contrEquiv1_symm_val Cert.ReferenceIdeal.dot_S100000x512_S512x64_S100000x64_1_0_0_1_n_n 512 rfl rfl k
  have el : Cert.ReferenceIdeal.dot_S100000x512_S512x64_S100000x64_1_0_0_1_n_n.lhsIdx i ((ValueIdx.contrEquiv1 Cert.ReferenceIdeal.dot_S100000x512_S512x64_S100000x64_1_0_0_1_n_n 512 rfl rfl).symm k) = arrL i k := funext fun a' => Fin.ext (by
    match a' with
    | ⟨0, _⟩ => exact arr_lhs_0 _ _
    | ⟨1, _⟩ => exact (arr_lhs_1 _ _).trans hk)
  have er : Cert.ReferenceIdeal.dot_S100000x512_S512x64_S100000x64_1_0_0_1_n_n.rhsIdx i ((ValueIdx.contrEquiv1 Cert.ReferenceIdeal.dot_S100000x512_S512x64_S100000x64_1_0_0_1_n_n 512 rfl rfl).symm k) = arrR i k := funext fun a' => Fin.ext (by
    match a' with
    | ⟨0, _⟩ => exact (arr_rhs_0 _ _).trans hk
    | ⟨1, _⟩ => exact arr_rhs_1 _ _)
  rw [el, er]

/-! ## From the blocks to the array -/

-- the contents of the TensorCore's buffers when the region is entered: any
variable (V : (c : Dev nD) → (b : Ref sig .tc) → Buf (Elt Ideal) ((c : Thread nD τ).loc b))

theorem hz : (![0, 0] : Fin 2 → Nat) = fun _ => 0 := funext fun a => by fin_cases a <;> rfl

/-- The left operand array as the region finds it, at its literal type. -/
abbrev lhsArr (c : Dev nD) : FVec Ideal S100000x512 .f32 := V c main_arg0
/-- The right operand array as the region finds it, at its literal type. -/
abbrev rhsArr (c : Dev nD) : FVec Ideal S512x64 .f32 := V c main_arg2

/-- The product of the two operand arrays as the region finds them. -/
abbrev product (c : Dev nD) : FVec Ideal S100000x64 .f32 :=
  Host.dotGeneral (F := Ideal) Cert.ReferenceIdeal.dot_S100000x512_S512x64_S100000x64_1_0_0_1_n_n none (lhsArr V c) (rhsArr V c)

/-- The index maps over the grid: the left and the output window move down one block of rows per point and never
    sideways; the right window stays on the whole right array. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 9 :=
  (by decide +kernel : ∀ t : Fin grid0.N, _)

/-- Every block of rows is some point's. -/
theorem idx_onto : ∀ q : Fin 10, ∃ t : Fin cfg0.N, win0_2.index t = ![q.val, 0] :=
  (by decide +kernel : ∀ q : Fin 10, ∃ t : Fin grid0.N, win0_2.index t = ![q.val, 0])

/-- What point `t` writes back is block `t` of the whole product. -/
theorem flushed_eq (c : Dev nD) (t : Fin cfg0.N) :
    (dat0 (F := Ideal) V c).flushed 2 t = ((cfg0.win 2).blk t).view.read (Elt Ideal) (product V c) := by
  show (cfg0.win 2).cut (grid0.coords t) ((dat0 V c).after 2 t) = _
  rw [after0_2]
  unfold out0_2
  rw [View.canon_unit_zero hz]
  simp only [View.ld_unit_zero (S := S10000x512) hz, View.ld_unit_zero (S := S512x64) hz]
  obtain ⟨e0, e1, e2, e3, e4, e5⟩ := idx_facts t
  funext j
  refine (blockProduct_apply _ _ j).trans ?_
  show _ = product V c (((cfg0.win 2).blk t).view.emb j)
  refine Eq.trans ?_ (arrayProduct_apply _ _ _).symm
  refine Finset.sum_congr rfl fun k _ => ?_
  have hL : ((cfg0.win 0).blk t).view.emb (blkL j k) = arrL (((cfg0.win 2).blk t).view.emb j) k := by
    funext a; apply Fin.ext
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 512 + 1 * k.val = k.val; omega
  have hR : ((cfg0.win 1).blk t).view.emb (blkR j k) = arrR (((cfg0.win 2).blk t).view.emb j) k := by
    funext a; apply Fin.ext
    match a with
    | ⟨0, _⟩ => show win0_1.index t (0 : Fin 2) * 512 + 1 * k.val = k.val; omega
    | ⟨1, _⟩ => show win0_1.index t (1 : Fin 2) * 64 + 1 * (j 1).val = win0_2.index t (1 : Fin 2) * 64 + 1 * (j 1).val; omega
  show lhsArr V c (((cfg0.win 0).blk t).view.emb (blkL j k)) * rhsArr V c (((cfg0.win 1).blk t).view.emb (blkR j k))
    = lhsArr V c (arrL (((cfg0.win 2).blk t).view.emb j) k) * rhsArr V c (arrR (((cfg0.win 2).blk t).view.emb j) k)
  rw [hL, hR]

/-- An index of the output array is in point `t`'s block iff each coordinate is in the block's range on its axis. -/
theorem mem_blk (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v30).slice (win0_2.rect t)).set ↔ _
  rw [View.set_slice_whole, Rect.mem_set_unit]
  exact Iff.rfl

/-- The row blocks tile the output array: row `r` is in the block of the point `r / 10000`. -/
theorem cover (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ := idx_onto ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 64 ≤ (i 1).val ∧ (i 1).val < win0_2.index t (1 : Fin 2) * 64 + 64; omega

/-- After the region the output array is the host's product of the two operand arrays as the region found them. -/
theorem exit_eq (c : Dev nD) : (dat0 (F := Ideal) V c).arrAt 2 cfg0.N = product V c :=
  (dat0 V c).arrAt_eq_of_cover 2 (product V c) (fun t _ => flushed_eq V c t) cover

end Cert.KernelIdeal.Region0

end
-- ==== Proof.KernelStages.lean ====
/-
  The host operations around the three matrix products, read one stretch at a time.
  The program first builds, from the edge list alone, the sources and the destinations with the self loops appended, each
  node's degree (a scatter-add of ones at the destinations), its inverse square root where the degree is positive (zero
  elsewhere), and each edge's weight `dinv[src] · dinv[dst]`. Each layer then takes the product `h · W`, gathers its rows at the
  sources, scales each by its edge's weight, adds them up at the destinations, adds the bias, and clamps at zero (the last
  layer's sum goes to a row-wise log-softmax instead, which is not read here). Every stretch below is stated for ANY contents `V` of the buffers at its
  entry and any float instance: what it writes is the corresponding stage of the reference's own operations
  (`val_main_v…`: one function of @main's arguments per operation) PROVIDED the buffers it takes over from earlier hold
  their stages; and it leaves alone the buffers later stretches still need. Nothing here depends on what the floats are:
  the two programs apply the same operations in the same order, so the stages agree as terms.
-/
import proofs.«401238_j22325240004826_2_alg».proof.Proof.Gen.KernelIdeal.Launch
import proofs.«401238_j22325240004826_2_alg».proof.Proof.RefRead
import Idealize.ShloMosaic.Lib.StableHlo.Run

noncomputable section

namespace Cert.KernelIdeal.Stages

open Cert.KernelIdeal Cert.KernelIdeal.Gen
open Cert.ReferenceIdeal.ReadP
open Idealize.ShloMosaic Idealize.ShloMosaic.TcCoe Idealize.SL.Sem Idealize.ShloMosaic.StableHlo

variable {F : FTy → Type} [FloatOps F] (V : Valuation τ sig (Elt F))

/-! ## Before the first product: the edge lists and each node's inverse square-root degree -/

/-- The sources, self loops appended. -/
theorem pre_src (x1 : (⟨S2x1600000, .i32⟩ : BufTy).Contents (Elt F)) (h1 : V (Proc.devRef .tc main_arg1) = x1) :
    after hostOps0_1 (after hostOps0 V) (Proc.devRef .tc main_v3) = val_main_v3 (F := F) x1 := by
  subst h1
  simp only [hostOps0, hostOps0_1]
  after_results_simp
  rfl

/-- The destinations, self loops appended. -/
theorem pre_dst (x1 : (⟨S2x1600000, .i32⟩ : BufTy).Contents (Elt F)) (h1 : V (Proc.devRef .tc main_arg1) = x1) :
    after hostOps0_1 (after hostOps0 V) (Proc.devRef .tc main_v6) = val_main_v6 (F := F) x1 := by
  subst h1
  simp only [hostOps0, hostOps0_1]
  after_results_simp
  rfl

/-- Each node's inverse square-root degree (zero where the degree is not positive). -/
theorem pre_dinv (x1 : (⟨S2x1600000, .i32⟩ : BufTy).Contents (Elt F)) (h1 : V (Proc.devRef .tc main_arg1) = x1) :
    after hostOps0_1 (after hostOps0 V) (Proc.devRef .tc main_v14) = val_main_v14 (F := F) x1 := by
  subst h1
  simp only [hostOps0, hostOps0_1]
  after_results_simp
  rfl

/-- These operations write none of the float arguments. -/
theorem pre_keeps (r : Ref sig .tc) (hr : r ∈ ([main_arg0, main_arg2, main_arg3, main_arg4, main_arg5, main_arg6, main_arg7] : List (Ref sig .tc))) :
    after hostOps0_1 (after hostOps0 V) (Proc.devRef .tc r) = V (Proc.devRef .tc r) := by
  simp only [List.mem_cons, List.mem_nil_iff, or_false] at hr
  rcases hr with rfl | rfl | rfl | rfl | rfl | rfl | rfl <;> (simp only [hostOps0, hostOps0_1]; after_results_simp)

/-! ## The edge weights -/

/-- Each edge's weight: the inverse square-root degree at its source times that at its destination. -/
theorem weights_eq (x1 : (⟨S2x1600000, .i32⟩ : BufTy).Contents (Elt F))
    (hs : V (Proc.devRef .tc main_v3) = val_main_v3 (F := F) x1)
    (hd : V (Proc.devRef .tc main_v6) = val_main_v6 (F := F) x1)
    (hi : V (Proc.devRef .tc main_v14) = val_main_v14 (F := F) x1) :
    after hostOps0_2 V (Proc.devRef .tc main_v29) = val_main_v29 (F := F) x1 := by
  simp only [hostOps0_2]
  after_results_simp
  rw [hs, hd, hi]
  rfl

/-- They write neither the edge lists nor a float argument. -/
theorem weights_keeps (r : Ref sig .tc) (hr : r ∈ ([main_v3, main_v6, main_arg0, main_arg2, main_arg3, main_arg4, main_arg5, main_arg6, main_arg7] : List (Ref sig .tc))) :
    after hostOps0_2 V (Proc.devRef .tc r) = V (Proc.devRef .tc r) := by
  simp only [List.mem_cons, List.mem_nil_iff, or_false] at hr
  rcases hr with rfl | rfl | rfl | rfl | rfl | rfl | rfl | rfl | rfl <;> (simp only [hostOps0_2]; after_results_simp)

/-! ## The three layers' propagation -/

/-- Layer 1's propagation: gather the product's rows at the sources, scale each by its edge weight, add them up at the
    destinations, add the bias, clamp below at zero — from the product (`hp`), the edge lists (`hs`, `hd`), the edge weights (`hn`) and
    the bias (`hb`) as the stretch finds them. -/
theorem layer1_out (x0 : (⟨S100000x512, .f32⟩ : BufTy).Contents (Elt F)) (x1 : (⟨S2x1600000, .i32⟩ : BufTy).Contents (Elt F)) (x2 : (⟨S512x64, .f32⟩ : BufTy).Contents (Elt F)) (x3 : (⟨S64, .f32⟩ : BufTy).Contents (Elt F))
    (hp : V (Proc.devRef .tc main_v30) = val_main_v30 (F := F) x0 x2)
    (hs : V (Proc.devRef .tc main_v3) = val_main_v3 (F := F) x1)
    (hd : V (Proc.devRef .tc main_v6) = val_main_v6 (F := F) x1)
    (hn : V (Proc.devRef .tc main_v29) = val_main_v29 (F := F) x1)
    (hb : V (Proc.devRef .tc main_arg3) = x3) :
    after hostOps1_1 (after hostOps1 V) (Proc.devRef .tc main_v47) = val_main_v47 (F := F) x0 x1 x2 x3 := by
  subst hb
  simp only [hostOps1, hostOps1_1]
  after_results_simp
  rw [hp, hs, hd, hn]
  rfl

/-- Layer 1's propagation writes neither the edge lists, the edge weights, nor a later layer's arguments. -/
theorem layer1_keeps (r : Ref sig .tc) (hr : r ∈ ([main_v3, main_v6, main_v29, main_arg4, main_arg5, main_arg6, main_arg7] : List (Ref sig .tc))) :
    after hostOps1_1 (after hostOps1 V) (Proc.devRef .tc r) = V (Proc.devRef .tc r) := by
  simp only [List.mem_cons, List.mem_nil_iff, or_false] at hr
  rcases hr with rfl | rfl | rfl | rfl | rfl | rfl | rfl <;> (simp only [hostOps1, hostOps1_1]; after_results_simp)

/-- Layer 2's propagation: gather the product's rows at the sources, scale each by its edge weight, add them up at the
    destinations, add the bias, clamp below at zero — from the product (`hp`), the edge lists (`hs`, `hd`), the edge weights (`hn`) and
    the bias (`hb`) as the stretch finds them. -/
theorem layer2_out (x0 : (⟨S100000x512, .f32⟩ : BufTy).Contents (Elt F)) (x1 : (⟨S2x1600000, .i32⟩ : BufTy).Contents (Elt F)) (x2 : (⟨S512x64, .f32⟩ : BufTy).Contents (Elt F)) (x3 : (⟨S64, .f32⟩ : BufTy).Contents (Elt F)) (x4 : (⟨S64x32, .f32⟩ : BufTy).Contents (Elt F)) (x5 : (⟨S32, .f32⟩ : BufTy).Contents (Elt F))
    (hp : V (Proc.devRef .tc main_v48) = val_main_v48 (F := F) x0 x1 x2 x3 x4)
    (hs : V (Proc.devRef .tc main_v3) = val_main_v3 (F := F) x1)
    (hd : V (Proc.devRef .tc main_v6) = val_main_v6 (F := F) x1)
    (hn : V (Proc.devRef .tc main_v29) = val_main_v29 (F := F) x1)
    (hb : V (Proc.devRef .tc main_arg5) = x5) :
    after hostOps2_1 (after hostOps2 V) (Proc.devRef .tc main_v65) = val_main_v65 (F := F) x0 x1 x2 x3 x4 x5 := by
  subst hb
  simp only [hostOps2, hostOps2_1]
  after_results_simp
  rw [hp, hs, hd, hn]
  rfl

/-- Layer 2's propagation writes neither the edge lists, the edge weights, nor the last layer's arguments. -/
theorem layer2_keeps (r : Ref sig .tc) (hr : r ∈ ([main_v3, main_v6, main_v29, main_arg6, main_arg7] : List (Ref sig .tc))) :
    after hostOps2_1 (after hostOps2 V) (Proc.devRef .tc r) = V (Proc.devRef .tc r) := by
  simp only [List.mem_cons, List.mem_nil_iff, or_false] at hr
  rcases hr with rfl | rfl | rfl | rfl | rfl <;> (simp only [hostOps2, hostOps2_1]; after_results_simp)

/-- Layer 3's propagation up to its sum: gather the product's rows at the sources, scale each by its edge weight, add them up
    at the destinations, add the bias — from the product (`hp`), the edge lists (`hs`, `hd`), the edge weights (`hn`) and the
    bias (`hb`) as the stretch finds them. -/
theorem layer3_sum (x0 : (⟨S100000x512, .f32⟩ : BufTy).Contents (Elt F)) (x1 : (⟨S2x1600000, .i32⟩ : BufTy).Contents (Elt F)) (x2 : (⟨S512x64, .f32⟩ : BufTy).Contents (Elt F)) (x3 : (⟨S64, .f32⟩ : BufTy).Contents (Elt F)) (x4 : (⟨S64x32, .f32⟩ : BufTy).Contents (Elt F)) (x5 : (⟨S32, .f32⟩ : BufTy).Contents (Elt F)) (x6 : (⟨S32x16, .f32⟩ : BufTy).Contents (Elt F)) (x7 : (⟨S16, .f32⟩ : BufTy).Contents (Elt F))
    (hp : V (Proc.devRef .tc main_v66) = val_main_v66 (F := F) x0 x1 x2 x3 x4 x5 x6)
    (hs : V (Proc.devRef .tc main_v3) = val_main_v3 (F := F) x1)
    (hd : V (Proc.devRef .tc main_v6) = val_main_v6 (F := F) x1)
    (hn : V (Proc.devRef .tc main_v29) = val_main_v29 (F := F) x1)
    (hb : V (Proc.devRef .tc main_arg7) = x7) :
    after hostOps3 V (Proc.devRef .tc main_v82) = val_main_v82 (F := F) x0 x1 x2 x3 x4 x5 x6 x7 := by
  subst hb
  simp only [hostOps3]
  after_results_simp
  rw [hp, hs, hd, hn]
  rfl

end Cert.KernelIdeal.Stages

end
-- ==== Proof.KernelResult.lean ====
/-
  What the kernel's program holds in the last layer's sum when its last stretch begins, at the extended reals.
  The generated frame follows the buffers' contents from the launch through every host stretch and every region
  (`W0`, …, `W12`). Reading that chain forwards: the stretches before the first region leave the edge lists and the edge
  weights at the reference's stages of the edge-list argument; each region leaves in its output array the host's
  `dot_general` of the two arrays it was given (the row blocks tile the rows, and a product into a zero accumulator is the
  plain sum over the inner extent); each layer's propagation then leaves that layer's stage; no stretch and no region
  disturbs what a later one reads. So when the last stretch (the row-wise log-softmax) begins, the last layer's sum is
  the reference's stage `val_main_v82` of the eight arguments as launched — the same function of the arguments the
  reference itself has there.
-/
import proofs.«401238_j22325240004826_2_alg».proof.Proof.Gen.KernelIdeal.Frame
import proofs.«401238_j22325240004826_2_alg».proof.Proof.Region0
import proofs.«401238_j22325240004826_2_alg».proof.Proof.Region1
import proofs.«401238_j22325240004826_2_alg».proof.Proof.Region2
import proofs.«401238_j22325240004826_2_alg».proof.Proof.KernelStages

set_option maxRecDepth 16384

noncomputable section

namespace Cert.KernelIdeal.Result

open Cert.KernelIdeal Cert.KernelIdeal.Gen
open Cert.ReferenceIdeal.ReadP
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## The arguments as launched, at their literal types -/

abbrev arg0 : (⟨S100000x512, .f32⟩ : BufTy).Contents (Elt Ideal) := m ((c : Thread nD τ).loc main_arg0)
abbrev arg1 : (⟨S2x1600000, .i32⟩ : BufTy).Contents (Elt Ideal) := m ((c : Thread nD τ).loc main_arg1)
abbrev arg2 : (⟨S512x64, .f32⟩ : BufTy).Contents (Elt Ideal) := m ((c : Thread nD τ).loc main_arg2)
abbrev arg3 : (⟨S64, .f32⟩ : BufTy).Contents (Elt Ideal) := m ((c : Thread nD τ).loc main_arg3)
abbrev arg4 : (⟨S64x32, .f32⟩ : BufTy).Contents (Elt Ideal) := m ((c : Thread nD τ).loc main_arg4)
abbrev arg5 : (⟨S32, .f32⟩ : BufTy).Contents (Elt Ideal) := m ((c : Thread nD τ).loc main_arg5)
abbrev arg6 : (⟨S32x16, .f32⟩ : BufTy).Contents (Elt Ideal) := m ((c : Thread nD τ).loc main_arg6)
abbrev arg7 : (⟨S16, .f32⟩ : BufTy).Contents (Elt Ideal) := m ((c : Thread nD τ).loc main_arg7)

/-! ## Before the first region -/

theorem src2 : W2 m ρ c (Proc.devRef .tc main_v3) = val_main_v3 (F := Ideal) (arg1 m c) :=
  Stages.pre_src (F := Ideal) (W0 m ρ c) _ rfl
theorem dst2 : W2 m ρ c (Proc.devRef .tc main_v6) = val_main_v6 (F := Ideal) (arg1 m c) :=
  Stages.pre_dst (F := Ideal) (W0 m ρ c) _ rfl
theorem dinv2 : W2 m ρ c (Proc.devRef .tc main_v14) = val_main_v14 (F := Ideal) (arg1 m c) :=
  Stages.pre_dinv (F := Ideal) (W0 m ρ c) _ rfl

theorem src3 : W3 m ρ c (Proc.devRef .tc main_v3) = val_main_v3 (F := Ideal) (arg1 m c) :=
  (Stages.weights_keeps (F := Ideal) (W2 m ρ c) main_v3 (by decide)).trans (src2 m ρ c)
theorem dst3 : W3 m ρ c (Proc.devRef .tc main_v6) = val_main_v6 (F := Ideal) (arg1 m c) :=
  (Stages.weights_keeps (F := Ideal) (W2 m ρ c) main_v6 (by decide)).trans (dst2 m ρ c)
theorem wts3 : W3 m ρ c (Proc.devRef .tc main_v29) = val_main_v29 (F := Ideal) (arg1 m c) :=
  Stages.weights_eq (F := Ideal) (W2 m ρ c) _ (src2 m ρ c) (dst2 m ρ c) (dinv2 m ρ c)

/-- No stretch before the first region writes a float argument. -/
theorem arg3_of (r : Ref sig .tc) (hr : r ∈ ([main_arg0, main_arg2, main_arg3, main_arg4, main_arg5, main_arg6, main_arg7] : List (Ref sig .tc))) :
    W3 m ρ c (Proc.devRef .tc r) = W0 m ρ c (Proc.devRef .tc r) :=
  (Stages.weights_keeps (F := Ideal) (W2 m ρ c) r (List.mem_cons_of_mem _ (List.mem_cons_of_mem _ hr))).trans
    (Stages.pre_keeps (F := Ideal) (W0 m ρ c) r hr)

/-! ## Region 0 and layer 1 -/

theorem prod4 : W4 m ρ c (Proc.devRef .tc main_v30) = val_main_v30 (F := Ideal) (arg0 m c) (arg2 m c) := by
  refine (W4_arr m ρ c 2).trans ((Region0.exit_eq (V3 m ρ) c).trans ?_)
  show Host.dotGeneral (F := Ideal) Cert.ReferenceIdeal.dot_S100000x512_S512x64_S100000x64_1_0_0_1_n_n none
      (W3 m ρ c (Proc.devRef .tc main_arg0)) (W3 m ρ c (Proc.devRef .tc main_arg2)) = _
  rw [arg3_of m ρ c main_arg0 (by decide), arg3_of m ρ c main_arg2 (by decide)]
  rfl

theorem src4 : W4 m ρ c (Proc.devRef .tc main_v3) = val_main_v3 (F := Ideal) (arg1 m c) :=
  (W4_of_ne m ρ c main_v3 (by decide)).trans (src3 m ρ c)
theorem dst4 : W4 m ρ c (Proc.devRef .tc main_v6) = val_main_v6 (F := Ideal) (arg1 m c) :=
  (W4_of_ne m ρ c main_v6 (by decide)).trans (dst3 m ρ c)
theorem wts4 : W4 m ρ c (Proc.devRef .tc main_v29) = val_main_v29 (F := Ideal) (arg1 m c) :=
  (W4_of_ne m ρ c main_v29 (by decide)).trans (wts3 m ρ c)
theorem a3_4 : W4 m ρ c (Proc.devRef .tc main_arg3) = arg3 m c :=
  (W4_of_ne m ρ c main_arg3 (by decide)).trans (arg3_of m ρ c main_arg3 (by decide))
theorem a4_4 : W4 m ρ c (Proc.devRef .tc main_arg4) = arg4 m c :=
  (W4_of_ne m ρ c main_arg4 (by decide)).trans (arg3_of m ρ c main_arg4 (by decide))
theorem a5_4 : W4 m ρ c (Proc.devRef .tc main_arg5) = arg5 m c :=
  (W4_of_ne m ρ c main_arg5 (by decide)).trans (arg3_of m ρ c main_arg5 (by decide))
theorem a6_4 : W4 m ρ c (Proc.devRef .tc main_arg6) = arg6 m c :=
  (W4_of_ne m ρ c main_arg6 (by decide)).trans (arg3_of m ρ c main_arg6 (by decide))
theorem a7_4 : W4 m ρ c (Proc.devRef .tc main_arg7) = arg7 m c :=
  (W4_of_ne m ρ c main_arg7 (by decide)).trans (arg3_of m ρ c main_arg7 (by decide))

theorem out6 : W6 m ρ c (Proc.devRef .tc main_v47) = val_main_v47 (F := Ideal) (arg0 m c) (arg1 m c) (arg2 m c) (arg3 m c) :=
  Stages.layer1_out (F := Ideal) (W4 m ρ c) _ _ _ _ (prod4 m ρ c) (src4 m ρ c) (dst4 m ρ c) (wts4 m ρ c) (a3_4 m ρ c)

theorem src6 : W6 m ρ c (Proc.devRef .tc main_v3) = val_main_v3 (F := Ideal) (arg1 m c) :=
  (Stages.layer1_keeps (F := Ideal) (W4 m ρ c) main_v3 (by decide)).trans (src4 m ρ c)
theorem dst6 : W6 m ρ c (Proc.devRef .tc main_v6) = val_main_v6 (F := Ideal) (arg1 m c) :=
  (Stages.layer1_keeps (F := Ideal) (W4 m ρ c) main_v6 (by decide)).trans (dst4 m ρ c)
theorem wts6 : W6 m ρ c (Proc.devRef .tc main_v29) = val_main_v29 (F := Ideal) (arg1 m c) :=
  (Stages.layer1_keeps (F := Ideal) (W4 m ρ c) main_v29 (by decide)).trans (wts4 m ρ c)
theorem a4_6 : W6 m ρ c (Proc.devRef .tc main_arg4) = arg4 m c :=
  (Stages.layer1_keeps (F := Ideal) (W4 m ρ c) main_arg4 (by decide)).trans (a4_4 m ρ c)
theorem a5_6 : W6 m ρ c (Proc.devRef .tc main_arg5) = arg5 m c :=
  (Stages.layer1_keeps (F := Ideal) (W4 m ρ c) main_arg5 (by decide)).trans (a5_4 m ρ c)
theorem a6_6 : W6 m ρ c (Proc.devRef .tc main_arg6) = arg6 m c :=
  (Stages.layer1_keeps (F := Ideal) (W4 m ρ c) main_arg6 (by decide)).trans (a6_4 m ρ c)
theorem a7_6 : W6 m ρ c (Proc.devRef .tc main_arg7) = arg7 m c :=
  (Stages.layer1_keeps (F := Ideal) (W4 m ρ c) main_arg7 (by decide)).trans (a7_4 m ρ c)

/-! ## Region 1 and layer 2 -/

theorem prod7 : W7 m ρ c (Proc.devRef .tc main_v48) = val_main_v48 (F := Ideal) (arg0 m c) (arg1 m c) (arg2 m c) (arg3 m c) (arg4 m c) := by
  refine (W7_arr m ρ c 2).trans ((Region1.exit_eq (V6 m ρ) c).trans ?_)
  show Host.dotGeneral (F := Ideal) Cert.ReferenceIdeal.dot_S100000x64_S64x32_S100000x32_1_0_0_1_n_n none
      (W6 m ρ c (Proc.devRef .tc main_v47)) (W6 m ρ c (Proc.devRef .tc main_arg4)) = _
  rw [out6 m ρ c, a4_6 m ρ c]
  rfl

theorem src7 : W7 m ρ c (Proc.devRef .tc main_v3) = val_main_v3 (F := Ideal) (arg1 m c) :=
  (W7_of_ne m ρ c main_v3 (by decide)).trans (src6 m ρ c)
theorem dst7 : W7 m ρ c (Proc.devRef .tc main_v6) = val_main_v6 (F := Ideal) (arg1 m c) :=
  (W7_of_ne m ρ c main_v6 (by decide)).trans (dst6 m ρ c)
theorem wts7 : W7 m ρ c (Proc.devRef .tc main_v29) = val_main_v29 (F := Ideal) (arg1 m c) :=
  (W7_of_ne m ρ c main_v29 (by decide)).trans (wts6 m ρ c)
theorem a5_7 : W7 m ρ c (Proc.devRef .tc main_arg5) = arg5 m c :=
  (W7_of_ne m ρ c main_arg5 (by decide)).trans (a5_6 m ρ c)
theorem a6_7 : W7 m ρ c (Proc.devRef .tc main_arg6) = arg6 m c :=
  (W7_of_ne m ρ c main_arg6 (by decide)).trans (a6_6 m ρ c)
theorem a7_7 : W7 m ρ c (Proc.devRef .tc main_arg7) = arg7 m c :=
  (W7_of_ne m ρ c main_arg7 (by decide)).trans (a7_6 m ρ c)

theorem out9 : W9 m ρ c (Proc.devRef .tc main_v65) = val_main_v65 (F := Ideal) (arg0 m c) (arg1 m c) (arg2 m c) (arg3 m c) (arg4 m c) (arg5 m c) :=
  Stages.layer2_out (F := Ideal) (W7 m ρ c) _ _ _ _ _ _ (prod7 m ρ c) (src7 m ρ c) (dst7 m ρ c) (wts7 m ρ c) (a5_7 m ρ c)

theorem src9 : W9 m ρ c (Proc.devRef .tc main_v3) = val_main_v3 (F := Ideal) (arg1 m c) :=
  (Stages.layer2_keeps (F := Ideal) (W7 m ρ c) main_v3 (by decide)).trans (src7 m ρ c)
theorem dst9 : W9 m ρ c (Proc.devRef .tc main_v6) = val_main_v6 (F := Ideal) (arg1 m c) :=
  (Stages.layer2_keeps (F := Ideal) (W7 m ρ c) main_v6 (by decide)).trans (dst7 m ρ c)
theorem wts9 : W9 m ρ c (Proc.devRef .tc main_v29) = val_main_v29 (F := Ideal) (arg1 m c) :=
  (Stages.layer2_keeps (F := Ideal) (W7 m ρ c) main_v29 (by decide)).trans (wts7 m ρ c)
theorem a6_9 : W9 m ρ c (Proc.devRef .tc main_arg6) = arg6 m c :=
  (Stages.layer2_keeps (F := Ideal) (W7 m ρ c) main_arg6 (by decide)).trans (a6_7 m ρ c)
theorem a7_9 : W9 m ρ c (Proc.devRef .tc main_arg7) = arg7 m c :=
  (Stages.layer2_keeps (F := Ideal) (W7 m ρ c) main_arg7 (by decide)).trans (a7_7 m ρ c)

/-! ## Region 2 and layer 3 -/

theorem prod10 : W10 m ρ c (Proc.devRef .tc main_v66) = val_main_v66 (F := Ideal) (arg0 m c) (arg1 m c) (arg2 m c) (arg3 m c) (arg4 m c) (arg5 m c) (arg6 m c) := by
  refine (W10_arr m ρ c 2).trans ((Region2.exit_eq (V9 m ρ) c).trans ?_)
  show Host.dotGeneral (F := Ideal) Cert.ReferenceIdeal.dot_S100000x32_S32x16_S100000x16_1_0_0_1_n_n none
      (W9 m ρ c (Proc.devRef .tc main_v65)) (W9 m ρ c (Proc.devRef .tc main_arg6)) = _
  rw [out9 m ρ c, a6_9 m ρ c]
  rfl

theorem src10 : W10 m ρ c (Proc.devRef .tc main_v3) = val_main_v3 (F := Ideal) (arg1 m c) :=
  (W10_of_ne m ρ c main_v3 (by decide)).trans (src9 m ρ c)
theorem dst10 : W10 m ρ c (Proc.devRef .tc main_v6) = val_main_v6 (F := Ideal) (arg1 m c) :=
  (W10_of_ne m ρ c main_v6 (by decide)).trans (dst9 m ρ c)
theorem wts10 : W10 m ρ c (Proc.devRef .tc main_v29) = val_main_v29 (F := Ideal) (arg1 m c) :=
  (W10_of_ne m ρ c main_v29 (by decide)).trans (wts9 m ρ c)
theorem a7_10 : W10 m ρ c (Proc.devRef .tc main_arg7) = arg7 m c :=
  (W10_of_ne m ρ c main_arg7 (by decide)).trans (a7_9 m ρ c)

/-- The last layer's sum, before the log-softmax. -/
theorem sum11 : W11 m ρ c (Proc.devRef .tc main_v82) = val_main_v82 (F := Ideal) (arg0 m c) (arg1 m c) (arg2 m c) (arg3 m c) (arg4 m c) (arg5 m c) (arg6 m c) (arg7 m c) :=
  Stages.layer3_sum (F := Ideal) (W10 m ρ c) _ _ _ _ _ _ _ _ (prod10 m ρ c) (src10 m ρ c) (dst10 m ρ c) (wts10 m ρ c) (a7_10 m ρ c)

end Cert.KernelIdeal.Result

end
-- ==== Proof.RefResult.lean ====
/-
  What the reference's program holds in the last layer's sum when its last stretch begins, as a function of the
  buffers' contents at launch.
  The reference's 121 host operations are the stretches around three `dot_general`s. Reading the fold of their results
  forwards from any launch contents `V`: the stretches before the first `dot_general` leave the edge lists and the edge
  weights at their stages of the edge-list argument; each `dot_general` writes its stage from the stage before it; each
  layer's propagation then leaves that layer's stage; no operation disturbs what a later one reads. So when the last
  stretch (the row-wise log-softmax) begins, the last layer's sum is the stage `val_main_v82` of the eight arguments'
  launch contents. Nothing here depends on what the floats are.
-/
import proofs.«401238_j22325240004826_2_alg».proof.Proof.RefRun
import proofs.«401238_j22325240004826_2_alg».proof.Proof.RefRead
import proofs.«401238_j22325240004826_2_alg».proof.Proof.RefStages
import Idealize.ShloMosaic.Lib.Pipeline.Frame

noncomputable section

namespace Cert.ReferenceIdeal.Result

open Cert.ReferenceIdeal Cert.ReferenceIdeal.ValueP
open Cert.ReferenceIdeal.ReadP
open Idealize.ShloMosaic Idealize.ShloMosaic.TcCoe Idealize.SL.Sem Idealize.ShloMosaic.StableHlo

variable {F : FTy → Type} [FloatOps F] (V : Valuation τ sig (Elt F))

/-! ## The buffers' contents after each stretch and each `dot_general` -/

abbrev U2 : Valuation τ sig (Elt F) := after hostOps0_1 (after hostOps0 V)
abbrev U3 : Valuation τ sig (Elt F) := after hostOps0_2 (U2 V)
abbrev U4 : Valuation τ sig (Elt F) := (dotOp0 (F := F)).result (U3 V)
abbrev U6 : Valuation τ sig (Elt F) := after hostOps1_1 (after hostOps1 (U4 V))
abbrev U7 : Valuation τ sig (Elt F) := (dotOp1 (F := F)).result (U6 V)
abbrev U9 : Valuation τ sig (Elt F) := after hostOps2_1 (after hostOps2 (U7 V))
abbrev U10 : Valuation τ sig (Elt F) := (dotOp2 (F := F)).result (U9 V)
abbrev U11 : Valuation τ sig (Elt F) := after hostOps3 (U10 V)
abbrev U12 : Valuation τ sig (Elt F) := after hostOps3_1 (U11 V)

/-- The fold of all 121 operations is the fold of the stretches and the `dot_general`s in order. -/
theorem after_ops : after (ops (F := F)) V = U12 V := by
  rw [ops_eq]
  simp only [StableHlo.after_append]
  rfl

/-! ## Before the first `dot_general` -/

theorem src3 : U3 V (Proc.devRef .tc main_v3) = val_main_v3 (F := F) (V (Proc.devRef .tc main_arg1)) :=
  (Stages.weights_keeps (U2 V) main_v3 (by decide)).trans (Stages.pre_src V _ rfl)
theorem dst3 : U3 V (Proc.devRef .tc main_v6) = val_main_v6 (F := F) (V (Proc.devRef .tc main_arg1)) :=
  (Stages.weights_keeps (U2 V) main_v6 (by decide)).trans (Stages.pre_dst V _ rfl)
theorem wts3 : U3 V (Proc.devRef .tc main_v29) = val_main_v29 (F := F) (V (Proc.devRef .tc main_arg1)) :=
  Stages.weights_eq (U2 V) _ (Stages.pre_src V _ rfl) (Stages.pre_dst V _ rfl) (Stages.pre_dinv V _ rfl)
theorem arg3_of (r : Ref sig .tc) (hr : r ∈ ([main_arg0, main_arg2, main_arg3, main_arg4, main_arg5, main_arg6, main_arg7] : List (Ref sig .tc))) :
    U3 V (Proc.devRef .tc r) = V (Proc.devRef .tc r) :=
  (Stages.weights_keeps (U2 V) r (List.mem_cons_of_mem _ (List.mem_cons_of_mem _ hr))).trans (Stages.pre_keeps V r hr)

/-! ## The first `dot_general` and layer 1 -/

theorem prod4 : U4 V (Proc.devRef .tc main_v30) = val_main_v30 (F := F) (V (Proc.devRef .tc main_arg0)) (V (Proc.devRef .tc main_arg2)) := by
  show (dotOp0 (F := F)).result (U3 V) (Proc.devRef .tc main_v30) = _
  rw [binary_result, arg3_of V main_arg0 (by decide), arg3_of V main_arg2 (by decide)]
  rfl
theorem keep4 (r : Ref sig .tc) (h : r ≠ main_v30) : U4 V (Proc.devRef .tc r) = U3 V (Proc.devRef .tc r) :=
  binary_result_ne _ _ _ _ _ _ _ (U3 V) h

theorem src4 : U4 V (Proc.devRef .tc main_v3) = val_main_v3 (F := F) (V (Proc.devRef .tc main_arg1)) := (keep4 V main_v3 (by decide)).trans (src3 V)
theorem dst4 : U4 V (Proc.devRef .tc main_v6) = val_main_v6 (F := F) (V (Proc.devRef .tc main_arg1)) := (keep4 V main_v6 (by decide)).trans (dst3 V)
theorem wts4 : U4 V (Proc.devRef .tc main_v29) = val_main_v29 (F := F) (V (Proc.devRef .tc main_arg1)) := (keep4 V main_v29 (by decide)).trans (wts3 V)
theorem a3_4 : U4 V (Proc.devRef .tc main_arg3) = V (Proc.devRef .tc main_arg3) :=
  (keep4 V main_arg3 (by decide)).trans (arg3_of V main_arg3 (by decide))
theorem a4_4 : U4 V (Proc.devRef .tc main_arg4) = V (Proc.devRef .tc main_arg4) :=
  (keep4 V main_arg4 (by decide)).trans (arg3_of V main_arg4 (by decide))
theorem a5_4 : U4 V (Proc.devRef .tc main_arg5) = V (Proc.devRef .tc main_arg5) :=
  (keep4 V main_arg5 (by decide)).trans (arg3_of V main_arg5 (by decide))
theorem a6_4 : U4 V (Proc.devRef .tc main_arg6) = V (Proc.devRef .tc main_arg6) :=
  (keep4 V main_arg6 (by decide)).trans (arg3_of V main_arg6 (by decide))
theorem a7_4 : U4 V (Proc.devRef .tc main_arg7) = V (Proc.devRef .tc main_arg7) :=
  (keep4 V main_arg7 (by decide)).trans (arg3_of V main_arg7 (by decide))

theorem out6 : U6 V (Proc.devRef .tc main_v47) = val_main_v47 (F := F) (V (Proc.devRef .tc main_arg0)) (V (Proc.devRef .tc main_arg1)) (V (Proc.devRef .tc main_arg2)) (V (Proc.devRef .tc main_arg3)) :=
  Stages.layer1_out (U4 V) _ _ _ _ (prod4 V) (src4 V) (dst4 V) (wts4 V) (a3_4 V)
theorem src6 : U6 V (Proc.devRef .tc main_v3) = val_main_v3 (F := F) (V (Proc.devRef .tc main_arg1)) :=
  (Stages.layer1_keeps (U4 V) main_v3 (by decide)).trans (src4 V)
theorem dst6 : U6 V (Proc.devRef .tc main_v6) = val_main_v6 (F := F) (V (Proc.devRef .tc main_arg1)) :=
  (Stages.layer1_keeps (U4 V) main_v6 (by decide)).trans (dst4 V)
theorem wts6 : U6 V (Proc.devRef .tc main_v29) = val_main_v29 (F := F) (V (Proc.devRef .tc main_arg1)) :=
  (Stages.layer1_keeps (U4 V) main_v29 (by decide)).trans (wts4 V)
theorem a4_6 : U6 V (Proc.devRef .tc main_arg4) = V (Proc.devRef .tc main_arg4) :=
  (Stages.layer1_keeps (U4 V) main_arg4 (by decide)).trans (a4_4 V)
theorem a5_6 : U6 V (Proc.devRef .tc main_arg5) = V (Proc.devRef .tc main_arg5) :=
  (Stages.layer1_keeps (U4 V) main_arg5 (by decide)).trans (a5_4 V)
theorem a6_6 : U6 V (Proc.devRef .tc main_arg6) = V (Proc.devRef .tc main_arg6) :=
  (Stages.layer1_keeps (U4 V) main_arg6 (by decide)).trans (a6_4 V)
theorem a7_6 : U6 V (Proc.devRef .tc main_arg7) = V (Proc.devRef .tc main_arg7) :=
  (Stages.layer1_keeps (U4 V) main_arg7 (by decide)).trans (a7_4 V)

/-! ## The second `dot_general` and layer 2 -/

theorem prod7 : U7 V (Proc.devRef .tc main_v48) = val_main_v48 (F := F) (V (Proc.devRef .tc main_arg0)) (V (Proc.devRef .tc main_arg1)) (V (Proc.devRef .tc main_arg2)) (V (Proc.devRef .tc main_arg3)) (V (Proc.devRef .tc main_arg4)) := by
  show (dotOp1 (F := F)).result (U6 V) (Proc.devRef .tc main_v48) = _
  rw [binary_result, out6 V, a4_6 V]
  rfl
theorem keep7 (r : Ref sig .tc) (h : r ≠ main_v48) : U7 V (Proc.devRef .tc r) = U6 V (Proc.devRef .tc r) :=
  binary_result_ne _ _ _ _ _ _ _ (U6 V) h

theorem src7 : U7 V (Proc.devRef .tc main_v3) = val_main_v3 (F := F) (V (Proc.devRef .tc main_arg1)) := (keep7 V main_v3 (by decide)).trans (src6 V)
theorem dst7 : U7 V (Proc.devRef .tc main_v6) = val_main_v6 (F := F) (V (Proc.devRef .tc main_arg1)) := (keep7 V main_v6 (by decide)).trans (dst6 V)
theorem wts7 : U7 V (Proc.devRef .tc main_v29) = val_main_v29 (F := F) (V (Proc.devRef .tc main_arg1)) := (keep7 V main_v29 (by decide)).trans (wts6 V)
theorem a5_7 : U7 V (Proc.devRef .tc main_arg5) = V (Proc.devRef .tc main_arg5) :=
  (keep7 V main_arg5 (by decide)).trans (a5_6 V)
theorem a6_7 : U7 V (Proc.devRef .tc main_arg6) = V (Proc.devRef .tc main_arg6) :=
  (keep7 V main_arg6 (by decide)).trans (a6_6 V)
theorem a7_7 : U7 V (Proc.devRef .tc main_arg7) = V (Proc.devRef .tc main_arg7) :=
  (keep7 V main_arg7 (by decide)).trans (a7_6 V)

theorem out9 : U9 V (Proc.devRef .tc main_v65) = val_main_v65 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) :=
  Stages.layer2_out (U7 V) _ _ _ _ _ _ (prod7 V) (src7 V) (dst7 V) (wts7 V) (a5_7 V)
theorem src9 : U9 V (Proc.devRef .tc main_v3) = val_main_v3 (F := F) (V (Proc.devRef .tc main_arg1)) :=
  (Stages.layer2_keeps (U7 V) main_v3 (by decide)).trans (src7 V)
theorem dst9 : U9 V (Proc.devRef .tc main_v6) = val_main_v6 (F := F) (V (Proc.devRef .tc main_arg1)) :=
  (Stages.layer2_keeps (U7 V) main_v6 (by decide)).trans (dst7 V)
theorem wts9 : U9 V (Proc.devRef .tc main_v29) = val_main_v29 (F := F) (V (Proc.devRef .tc main_arg1)) :=
  (Stages.layer2_keeps (U7 V) main_v29 (by decide)).trans (wts7 V)
theorem a6_9 : U9 V (Proc.devRef .tc main_arg6) = V (Proc.devRef .tc main_arg6) :=
  (Stages.layer2_keeps (U7 V) main_arg6 (by decide)).trans (a6_7 V)
theorem a7_9 : U9 V (Proc.devRef .tc main_arg7) = V (Proc.devRef .tc main_arg7) :=
  (Stages.layer2_keeps (U7 V) main_arg7 (by decide)).trans (a7_7 V)

/-! ## The third `dot_general` and layer 3 -/

theorem prod10 : U10 V (Proc.devRef .tc main_v66) = val_main_v66 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  show (dotOp2 (F := F)).result (U9 V) (Proc.devRef .tc main_v66) = _
  rw [binary_result, out9 V, a6_9 V]
  rfl
theorem keep10 (r : Ref sig .tc) (h : r ≠ main_v66) : U10 V (Proc.devRef .tc r) = U9 V (Proc.devRef .tc r) :=
  binary_result_ne _ _ _ _ _ _ _ (U9 V) h

theorem src10 : U10 V (Proc.devRef .tc main_v3) = val_main_v3 (F := F) (V (Proc.devRef .tc main_arg1)) := (keep10 V main_v3 (by decide)).trans (src9 V)
theorem dst10 : U10 V (Proc.devRef .tc main_v6) = val_main_v6 (F := F) (V (Proc.devRef .tc main_arg1)) := (keep10 V main_v6 (by decide)).trans (dst9 V)
theorem wts10 : U10 V (Proc.devRef .tc main_v29) = val_main_v29 (F := F) (V (Proc.devRef .tc main_arg1)) := (keep10 V main_v29 (by decide)).trans (wts9 V)
theorem a7_10 : U10 V (Proc.devRef .tc main_arg7) = V (Proc.devRef .tc main_arg7) :=
  (keep10 V main_arg7 (by decide)).trans (a7_9 V)

theorem sum11 : U11 V (Proc.devRef .tc main_v82) = val_main_v82 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) :=
  Stages.layer3_sum (U10 V) _ _ _ _ _ _ _ _ (prod10 V) (src10 V) (dst10 V) (wts10 V) (a7_10 V)

set_option maxHeartbeats 4000000 in
/-- No operation writes an argument: each argument's buffer ends as launched. -/
theorem arg_kept (r : Ref sig .tc) (hr : r ∈ ([main_arg0, main_arg1, main_arg2, main_arg3, main_arg4, main_arg5, main_arg6, main_arg7] : List (Ref sig .tc))) :
    after (ops (F := F)) V (Proc.devRef .tc r) = V (Proc.devRef .tc r) := by
  refine StableHlo.after_of_forall_not_mem _ _ (List.forall_iff_forall_mem.mp ?_)
  simp only [List.mem_cons, List.mem_nil_iff, or_false] at hr
  rcases hr with rfl | rfl | rfl | rfl | rfl | rfl | rfl | rfl <;>
    (simp only [ops, List.Forall, StableHlo.nullary_writes, StableHlo.unary_writes, StableHlo.binary_writes, StableHlo.ternary_writes,
       StableHlo.quaternary_writes, StableHlo.reshape_writes, StableHlo.binaryIndexed_writes, Finset.mem_singleton]
     repeat' apply And.intro
     all_goals exact StableHlo.devRef_ne_of_ne (by decide))

/-- The result buffer after all 121 operations is what the last stretch, the log-softmax, leaves from the contents `U11`. -/
theorem result_after : after (ops (F := F)) V (Proc.devRef .tc main_v83) = after hostOps3_1 (U11 V) (Proc.devRef .tc main_v83) := by
  rw [after_ops]

end Cert.ReferenceIdeal.Result

end
-- ==== Proof.TailEq.lean ====
/-
  The last stretch of both programs is the same fifteen operations, the row-wise log-softmax of the last layer's sum:
  each entry minus its row's maximum, minus the logarithm of the row's sum of exponentials of those differences. What
  it leaves in the result buffer is therefore one function of what the sum's buffer held when the stretch began, the
  same function in the kernel's program and in the reference's. The function itself is never opened (it folds over
  rows of a full-size array): the two stretches are compared operation against operation.
-/
import proofs.«401238_j22325240004826_2_alg».proof.Proof.Gen.KernelIdeal.Launch
import proofs.«401238_j22325240004826_2_alg».proof.Proof.RefRun
import Idealize.ShloMosaic.Lib.StableHlo.Run

noncomputable section

namespace Cert.Proof.Tail

open Idealize.ShloMosaic Idealize.ShloMosaic.TcCoe Idealize.SL.Sem Idealize.ShloMosaic.StableHlo

variable {F : FTy → Type} [FloatOps F]

/-- From contents of the two programs' buffers that agree on the last layer's sum (`hK`, `hR`), the two programs'
    log-softmax stretches leave the same array in their result buffers. -/
theorem logSoftmax_agree (VK : Valuation Cert.KernelIdeal.τ Cert.KernelIdeal.sig (Elt F))
    (VR : Valuation Cert.ReferenceIdeal.τ Cert.ReferenceIdeal.sig (Elt F))
    (y : (⟨Cert.ReferenceIdeal.S100000x16, .f32⟩ : BufTy).Contents (Elt F))
    (hK : VK (Proc.devRef .tc Cert.KernelIdeal.main_v82) = y)
    (hR : VR (Proc.devRef .tc Cert.ReferenceIdeal.main_v82) = y) :
    after Cert.KernelIdeal.Gen.hostOps3_1 VK (Proc.devRef .tc Cert.KernelIdeal.main_v83)
      = after Cert.ReferenceIdeal.ValueP.hostOps3_1 VR (Proc.devRef .tc Cert.ReferenceIdeal.main_v83) := by
  simp only [Cert.KernelIdeal.Gen.hostOps3_1, Cert.ReferenceIdeal.ValueP.hostOps3_1]
  after_results_simp
  rw [hK, hR]

end Cert.Proof.Tail

end
-- ==== Proof.lean ====
/-
  The kernel is a three-layer graph convolution: each layer multiplies the node features by a weight matrix, gathers
  the product's rows at the edges' sources, scales each by the edge's weight, adds them up at the destinations, adds a
  bias, and clamps at zero; the last layer ends in a row-wise log-softmax instead. The kernel's program differs from the
  reference's in one thing only: each of the three matrix products is a Pallas call that computes the product one block of
  rows at a time (ten blocks of 10000 rows for the first, two blocks of 50000 rows for the others), where the reference
  calls the host's `dot_general` once. Every other host operation is the same operation in the same place.

  Over the extended reals the two are the same function. A block of rows of a product is the product of that block of
  rows: entry (r, c) is the sum over the inner index k of a (r, k) · b (k, c) whichever block row r is computed in, the
  zero accumulator the kernel starts from adds nothing (0 + s = s for every extended real, so no finiteness is used), and
  the row blocks tile the output. So after each Pallas call the output array is the host's `dot_general` of the two arrays
  the call was given (Proof/Region0, Region1, Region2). Feeding that through the shared host operations, stretch by
  stretch, both programs hold the same array — the reference's stage `val_main_v82` of the eight arguments — when their
  last stretch, the log-softmax, begins (Proof/KernelResult for the kernel, read along the generated frame's chain of
  buffer contents; Proof/RefResult for the reference, read along its list of operations), and the last stretch is the
  same operations on both sides (Proof/TailEq). The precondition (every float input finite) is never used.

  The three frames: the kernel's two are the generated ones; the reference's is its run (the library's theorem for a
  straight line of host operations) with the arguments read back through operations that never write them. The
  idealization rewrote no operation, so there is nothing to preserve.
-/
import proofs.«401238_j22325240004826_2_alg».proof.Defs
import proofs.«401238_j22325240004826_2_alg».proof.Proof.Gen.Kernel
import proofs.«401238_j22325240004826_2_alg».proof.Proof.Gen.Kernel.Frame
import proofs.«401238_j22325240004826_2_alg».proof.Proof.Gen.KernelIdeal
import proofs.«401238_j22325240004826_2_alg».proof.Proof.Gen.KernelIdeal.Frame
import proofs.«401238_j22325240004826_2_alg».proof.Proof.Gen.ReferenceIdeal
import proofs.«401238_j22325240004826_2_alg».proof.Proof.Gen.Pre_finite_inputs
import proofs.«401238_j22325240004826_2_alg».proof.Proof.KernelRun
import proofs.«401238_j22325240004826_2_alg».proof.Proof.KernelResult
import proofs.«401238_j22325240004826_2_alg».proof.Proof.RefRun
import proofs.«401238_j22325240004826_2_alg».proof.Proof.RefResult
import proofs.«401238_j22325240004826_2_alg».proof.Proof.TailEq
import Idealize.ShloMosaic.Adequacy
import Idealize.ShloMosaic.Init

noncomputable section

namespace Cert.Proof

open Idealize.ShloMosaic Idealize.ShloMosaic.TcCoe Idealize.SL.Sem Idealize.ShloMosaic.StableHlo

theorem frame_kernel : Cert.frame_Kernel (hKernel := Cert.Kernel.Gen.facts) (hPre_finite_inputs := Cert.Pre_finite_inputs.Gen.facts) :=
  fun m ρ _ => Cert.Kernel.Gen.frame m ρ

theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference runs, and none of its operations writes an argument. -/
theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun r h c =>
    ⟨(h c Cert.ReferenceIdeal.main_arg0).trans (Cert.ReferenceIdeal.Result.arg_kept (F := Ideal) (launchContents m c) Cert.ReferenceIdeal.main_arg0 (by decide)),
     (h c Cert.ReferenceIdeal.main_arg1).trans (Cert.ReferenceIdeal.Result.arg_kept (F := Ideal) (launchContents m c) Cert.ReferenceIdeal.main_arg1 (by decide)),
     (h c Cert.ReferenceIdeal.main_arg2).trans (Cert.ReferenceIdeal.Result.arg_kept (F := Ideal) (launchContents m c) Cert.ReferenceIdeal.main_arg2 (by decide)),
     (h c Cert.ReferenceIdeal.main_arg3).trans (Cert.ReferenceIdeal.Result.arg_kept (F := Ideal) (launchContents m c) Cert.ReferenceIdeal.main_arg3 (by decide)),
     (h c Cert.ReferenceIdeal.main_arg4).trans (Cert.ReferenceIdeal.Result.arg_kept (F := Ideal) (launchContents m c) Cert.ReferenceIdeal.main_arg4 (by decide)),
     (h c Cert.ReferenceIdeal.main_arg5).trans (Cert.ReferenceIdeal.Result.arg_kept (F := Ideal) (launchContents m c) Cert.ReferenceIdeal.main_arg5 (by decide)),
     (h c Cert.ReferenceIdeal.main_arg6).trans (Cert.ReferenceIdeal.Result.arg_kept (F := Ideal) (launchContents m c) Cert.ReferenceIdeal.main_arg6 (by decide)),
     (h c Cert.ReferenceIdeal.main_arg7).trans (Cert.ReferenceIdeal.Result.arg_kept (F := Ideal) (launchContents m c) Cert.ReferenceIdeal.main_arg7 (by decide))⟩)
    (Cert.ReferenceIdeal.ValueP.run_after (F := Ideal) m ρ)

/-- Both programs end with the same result array: the kernel's own final contents of its result buffer. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨fun c => Cert.KernelIdeal.Gen.W12 m ρ c (Proc.devRef .tc Cert.KernelIdeal.main_v83),
    Cert.KernelIdeal.GenP.run_result (F := Ideal) m ρ, ?_⟩
  refine (θ_run Cert.ReferenceIdeal.defs _ _).mono (fun r h c => ⟨?_,
     (h c Cert.ReferenceIdeal.main_arg0).trans (Cert.ReferenceIdeal.Result.arg_kept (F := Ideal) (launchContents m' c) Cert.ReferenceIdeal.main_arg0 (by decide)),
     (h c Cert.ReferenceIdeal.main_arg1).trans (Cert.ReferenceIdeal.Result.arg_kept (F := Ideal) (launchContents m' c) Cert.ReferenceIdeal.main_arg1 (by decide)),
     (h c Cert.ReferenceIdeal.main_arg2).trans (Cert.ReferenceIdeal.Result.arg_kept (F := Ideal) (launchContents m' c) Cert.ReferenceIdeal.main_arg2 (by decide)),
     (h c Cert.ReferenceIdeal.main_arg3).trans (Cert.ReferenceIdeal.Result.arg_kept (F := Ideal) (launchContents m' c) Cert.ReferenceIdeal.main_arg3 (by decide)),
     (h c Cert.ReferenceIdeal.main_arg4).trans (Cert.ReferenceIdeal.Result.arg_kept (F := Ideal) (launchContents m' c) Cert.ReferenceIdeal.main_arg4 (by decide)),
     (h c Cert.ReferenceIdeal.main_arg5).trans (Cert.ReferenceIdeal.Result.arg_kept (F := Ideal) (launchContents m' c) Cert.ReferenceIdeal.main_arg5 (by decide)),
     (h c Cert.ReferenceIdeal.main_arg6).trans (Cert.ReferenceIdeal.Result.arg_kept (F := Ideal) (launchContents m' c) Cert.ReferenceIdeal.main_arg6 (by decide)),
     (h c Cert.ReferenceIdeal.main_arg7).trans (Cert.ReferenceIdeal.Result.arg_kept (F := Ideal) (launchContents m' c) Cert.ReferenceIdeal.main_arg7 (by decide))⟩)
    (Cert.ReferenceIdeal.ValueP.run_after (F := Ideal) m' ρ')
  obtain ⟨e0, e1, e2, e3, e4, e5, e6, e7⟩ := hagree c
  -- the reference's sum of the last layer, at the arguments the two memories agree on
  have hr : Cert.ReferenceIdeal.Result.U11 (F := Ideal) (launchContents m' c) (Proc.devRef .tc Cert.ReferenceIdeal.main_v82)
      = Cert.ReferenceIdeal.ReadP.val_main_v82 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) :=
    Cert.ReferenceIdeal.Result.sum11 (F := Ideal) (launchContents m' c)
  rw [e0, e1, e2, e3, e4, e5, e6, e7] at hr
  refine (h c Cert.ReferenceIdeal.main_v83).trans ((Cert.ReferenceIdeal.Result.result_after (F := Ideal) (launchContents m' c)).trans ?_)
  exact (Cert.Proof.Tail.logSoftmax_agree (F := Ideal) (Cert.KernelIdeal.Gen.W11 m ρ c) (Cert.ReferenceIdeal.Result.U11 (F := Ideal) (launchContents m' c)) _
    (Cert.KernelIdeal.Result.sum11 m ρ c) hr).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
